-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Kernel.lean ====
abbrev S4096x512 : Shape := ⟨2, ![4096, 512]⟩
abbrev S12288x512 : Shape := ⟨2, ![12288, 512]⟩
abbrev S_ : Shape := ⟨0, ![]⟩
abbrev S4096 : Shape := ⟨1, ![4096]⟩
abbrev S4096x1 : Shape := ⟨2, ![4096, 1]⟩
abbrev S12288 : Shape := ⟨1, ![12288]⟩
abbrev S12288x1 : Shape := ⟨2, ![12288, 1]⟩
abbrev S1x12288 : Shape := ⟨2, ![1, 12288]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 50
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S12288x512, .f32⟩
  | .hbm, ⟨4, _⟩ => ⟨S4096x512, .bf16⟩
  | .hbm, ⟨5, _⟩ => ⟨S12288x512, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S12288x512, .f32⟩
  | .hbm, ⟨11, _⟩ => ⟨S_, .f32⟩
  | .hbm, ⟨12, _⟩ => ⟨S12288, .f32⟩
  | .hbm, ⟨13, _⟩ => ⟨S12288x1, .f32⟩
  | .hbm, ⟨14, _⟩ => ⟨S1x12288, .f32⟩
  | .hbm, ⟨15, _⟩ => ⟨S4096x1, .f32⟩
  | .hbm, ⟨16, _⟩ => ⟨S4096, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S4096x512_S4096x512_S4096x512_S12288x512_d0 : Shape.Concatenates [S4096x512, S4096x512, S4096x512] S12288x512 0
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S12288x512_S12288_d1 : S12288x512.ReducesTo [1] S12288
  bcast_S12288_S12288x1_0 : S12288.BroadcastsInDim S12288x1 (![0] : Fin 1 → Fin S12288x1.rank)
  transposes_S12288x1_S1x12288_1_0 : S12288x1.Transposes [1, 0] S1x12288
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  shapeCasts_S4096x1_S4096 : S4096x1.ShapeCasts S4096
  bcast_S_S4096x512 : S_.BroadcastsInDim S4096x512 (![] : Fin 0 → Fin S4096x512.rank)
  bcast_S_S4096 : S_.BroadcastsInDim S4096 (![] : Fin 0 → Fin S4096.rank)
  reducesTo_S4096_S_d0 : S4096.ReducesTo [0] S_
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S12288x512.size a
  hwx0_1 : ∀ i : grid0.Coords, EltTy.bits .bf16 = 32 ∨ (Rect.block (s := S12288x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x12288.size a
  hwx0_3 : ∀ i : grid0.Coords, EltTy.bits .f32 = 32 ∨ (Rect.block (s := S1x12288) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S12288x512 : Shape := ⟨2, ![12288, 512]⟩
abbrev S_ : Shape := ⟨0, ![]⟩
abbrev S4096 : Shape := ⟨1, ![4096]⟩
abbrev S4096x1 : Shape := ⟨2, ![4096, 1]⟩
abbrev S12288 : Shape := ⟨1, ![12288]⟩
abbrev S1x12288 : Shape := ⟨2, ![1, 12288]⟩
abbrev S4096x12288 : Shape := ⟨2, ![4096, 12288]⟩
abbrev S512x12288 : Shape := ⟨2, ![512, 12288]⟩
abbrev S4096x2 : Shape := ⟨2, ![4096, 2]⟩

abbrev nBuf : Space → Nat
  | .hbm => 131
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S12288x512, .f32⟩
  | 4 => ⟨S4096x512, .f32⟩
  | 5 => ⟨S_, .f32⟩
  | 6 => ⟨S4096, .f32⟩
  | 7 => ⟨S4096x1, .f32⟩
  | 8 => ⟨S12288x512, .f32⟩
  | 9 => ⟨S_, .f32⟩
  | 10 => ⟨S12288, .f32⟩
  | 11 => ⟨S1x12288, .f32⟩
  | 12 => ⟨S4096x12288, .f32⟩
  | 13 => ⟨S4096x12288, .f32⟩
  | 14 => ⟨S4096x12288, .f32⟩
  | 15 => ⟨S512x12288, .f32⟩
  | 16 => ⟨S4096x12288, .f32⟩
  | 17 => ⟨S_, .f32⟩
  | 18 => ⟨S4096x12288, .f32⟩
  | 19 => ⟨S4096x12288, .f32⟩
  | 20 => ⟨S4096x12288, .f32⟩
  | 21 => ⟨S_, .f32⟩
  | 22 => ⟨S4096x12288, .f32⟩
  | 23 => ⟨S4096x12288, .f32⟩
  | 24 => ⟨S_, .f32⟩
  | 25 => ⟨S4096x12288, .f32⟩
  | 26 => ⟨S4096x12288, .i1⟩
  | 27 => ⟨S_, .f32⟩
  | 28 => ⟨S_, .f32⟩
  | 29 => ⟨S4096x12288, .f32⟩
  | 30 => ⟨S4096x12288, .f32⟩
  | 31 => ⟨S4096x12288, .f32⟩
  | 32 => ⟨S_, .f32⟩
  | 33 => ⟨S_, .f32⟩
  | 34 => ⟨S4096x12288, .f32⟩
  | 35 => ⟨S4096x12288, .f32⟩
  | 36 => ⟨S_, .f32⟩
  | 37 => ⟨S4096x12288, .f32⟩
  | 38 => ⟨S4096x12288, .f32⟩
  | 39 => ⟨S4096x512, .f32⟩
  | 40 => ⟨S_, .f32⟩
  | 41 => ⟨S4096x512, .f32⟩
  | 42 => ⟨S4096x512, .f32⟩
  | 43 => ⟨S4096x512, .f32⟩
  | 44 => ⟨S_, .f32⟩
  | 45 => ⟨S4096, .f32⟩
  | 46 => ⟨S4096, .f32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096x1, .i32⟩
  | 67 => ⟨S4096x2, .i32⟩
  | 68 => ⟨S4096, .f32⟩
  | 69 => ⟨S_, .i32⟩
  | 70 => ⟨S4096, .i32⟩
  | 71 => ⟨S4096, .i32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S4096x1, .i32⟩
  | 88 => ⟨S4096x2, .i32⟩
  | 89 => ⟨S4096, .f32⟩
  | 90 => ⟨S4096, .f32⟩
  | 91 => ⟨S4096, .f32⟩
  | 92 => ⟨S4096, .f32⟩
  | 93 => ⟨S12288, .i32⟩
  | 94 => ⟨S1x12288, .i32⟩
  | 95 => ⟨S4096x1, .i32⟩
  | 96 => ⟨S4096x12288, .i32⟩
  | 97 => ⟨S4096x12288, .i32⟩
  | 98 => ⟨S4096x12288, .i1⟩
  | 99 => ⟨S_, .i32⟩
  | 100 => ⟨S4096x1, .i32⟩
  | 101 => ⟨S4096x1, .i32⟩
  | 102 => ⟨S4096x12288, .i32⟩
  | 103 => ⟨S4096x12288, .i32⟩
  | 104 => ⟨S4096x12288, .i1⟩
  | 105 => ⟨S4096x12288, .i1⟩
  | 106 => ⟨S_, .i32⟩
  | 107 => ⟨S4096x1, .i32⟩
  | 108 => ⟨S4096x1, .i32⟩
  | 109 => ⟨S4096x12288, .i32⟩
  | 110 => ⟨S4096x12288, .i32⟩
  | 111 => ⟨S4096x12288, .i1⟩
  | 112 => ⟨S4096x12288, .i1⟩
  | 113 => ⟨S_, .f32⟩
  | 114 => ⟨S_, .f32⟩
  | 115 => ⟨S4096x12288, .f32⟩
  | 116 => ⟨S4096x12288, .f32⟩
  | 117 => ⟨S_, .f32⟩
  | 118 => ⟨S4096, .f32⟩
  | 119 => ⟨S4096, .f32⟩
  | 120 => ⟨S_, .f32⟩
  | 121 => ⟨S4096, .f32⟩
  | 122 => ⟨S4096, .f32⟩
  | 123 => ⟨S_, .f32⟩
  | 124 => ⟨S4096, .f32⟩
  | 125 => ⟨S4096, .f32⟩
  | 126 => ⟨S4096, .f32⟩
  | 127 => ⟨S_, .f32⟩
  | _ => ⟨S4096x512, .f32⟩

abbrev hbmTy0_1 (i : Nat) : BufTy := match i % 128 with
  | 0 => ⟨S_, .f32⟩
  | 1 => ⟨S_, .f32⟩
  | 2 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_c_13 : Ref sig .tc := ⟨.hbm, 72, rfl⟩
abbrev main_v48 : Ref sig .tc := ⟨.hbm, 73, rfl⟩
abbrev main_v49 : Ref sig .tc := ⟨.hbm, 74, rfl⟩
abbrev main_c_14 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_15 : Ref sig .tc := ⟨.hbm, 79, rfl⟩
abbrev main_v53 : Ref sig .tc := ⟨.hbm, 80, rfl⟩
abbrev main_v54 : Ref sig .tc := ⟨.hbm, 81, rfl⟩
abbrev main_c_16 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_call3_v0 : Ref sig .tc := ⟨.hbm, 114, rfl⟩
abbrev main_call3_v1 : Ref sig .tc := ⟨.hbm, 115, rfl⟩
abbrev main_v83 : Ref sig .tc := ⟨.hbm, 116, rfl⟩
abbrev main_cst_20 : Ref sig .tc := ⟨.hbm, 117, rfl⟩
abbrev main_v84 : Ref sig .tc := ⟨.hbm, 118, rfl⟩
abbrev main_v85 : Ref sig .tc := ⟨.hbm, 119, rfl⟩
abbrev main_cst_21 : Ref sig .tc := ⟨.hbm, 120, rfl⟩
abbrev main_v86 : Ref sig .tc := ⟨.hbm, 121, rfl⟩
abbrev main_v87 : Ref sig .tc := ⟨.hbm, 122, rfl⟩
abbrev main_call4_cst : Ref sig .tc := ⟨.hbm, 123, rfl⟩
abbrev main_call4_v0 : Ref sig .tc := ⟨.hbm, 124, rfl⟩
abbrev main_v88 : Ref sig .tc := ⟨.hbm, 125, rfl⟩
abbrev main_v89 : Ref sig .tc := ⟨.hbm, 126, rfl⟩
abbrev main_cst_22 : Ref sig .tc := ⟨.hbm, 127, rfl⟩
abbrev main_v90 : Ref sig .tc := ⟨.hbm, 128, rfl⟩
abbrev main_cst_23 : Ref sig .tc := ⟨.hbm, 129, rfl⟩
abbrev main_v91 : Ref sig .tc := ⟨.hbm, 130, rfl⟩

abbrev nD : Nat := 1
abbrev τ : Topo := Topo.v7x

variable {F : FTy → Type} [FloatOps F]

class Facts₀ : Prop where
  concatenates_S4096x512_S4096x512_S4096x512_S12288x512_d0 : Shape.Concatenates [S4096x512, S4096x512, S4096x512] S12288x512 0
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S12288x512_S12288_d1 : S12288x512.ReducesTo [1] S12288
  bcast_S12288_S1x12288_1 : S12288.BroadcastsInDim S1x12288 (![1] : Fin 1 → Fin S1x12288.rank)
  bcast_S4096x1_S4096x12288_0_1 : S4096x1.BroadcastsInDim S4096x12288 (![0, 1] : Fin 2 → Fin S4096x12288.rank)
  bcast_S1x12288_S4096x12288_0_1 : S1x12288.BroadcastsInDim S4096x12288 (![0, 1] : Fin 2 → Fin S4096x12288.rank)
  transposes_S12288x512_S512x12288_1_0 : S12288x512.Transposes [1, 0] S512x12288
  bcast_S_S4096x12288 : S_.BroadcastsInDim S4096x12288 (![] : Fin 0 → Fin S4096x12288.rank)
  bcast_S_S4096x512 : S_.BroadcastsInDim S4096x512 (![] : Fin 0 → Fin S4096x512.rank)
  bcast_S_S4096 : S_.BroadcastsInDim S4096 (![] : Fin 0 → Fin S4096.rank)
  concatenates_S4096x1_S4096x1_S4096x2_d1 : Shape.Concatenates [S4096x1, S4096x1] S4096x2 1
  bcast_S_S4096x1 : S_.BroadcastsInDim S4096x1 (![] : Fin 0 → Fin S4096x1.rank)
  reducesTo_S4096x12288_S4096_d1 : S4096x12288.ReducesTo [1] S4096
  reducesTo_S4096_S_d0 : S4096.ReducesTo [0] S_
  dot_S4096x512_S512x12288_S4096x12288_1_0_0_1_n_n_wf : DotDims.WF S4096x512 S512x12288 S4096x12288 [1] [0] [0] [1] [] []
  gather_S4096x12288_S4096x2_S4096_n_01_n_n_01_1_11_wf : GatherDims.WF S4096x12288 S4096x2 S4096 [] [0, 1] [] [0, 1] [] 1 ![1, 1]

variable [Facts₀]

def dot_S4096x512_S512x12288_S4096x12288_1_0_0_1_n_n : DotDims S4096x512 S512x12288 S4096x12288 where
  lhsContracting := [1]
  rhsContracting := [0]
  lhsNonContracting := [0]
  rhsNonContracting := [1]
  lhsBatch := []
  rhsBatch := []
  wf := dot_S4096x512_S512x12288_S4096x12288_1_0_0_1_n_n_wf
def gather_S4096x12288_S4096x2_S4096_n_01_n_n_01_1_11 : GatherDims S4096x12288 S4096x2 S4096 where
  offsetDims := []
  collapsedSliceDims := [0, 1]
  operandBatchingDims := []
  startIndicesBatchingDims := []
  startIndexMap := [0, 1]
  indexVectorDim := 1
  sliceSizes := ![1, 1]
  wf := gather_S4096x12288_S4096x2_S4096_n_01_n_n_01_1_11_wf

class Facts : Prop extends Facts₀ where

variable [Facts]
-- ==== Proof.K.Kit.lean ====
/- Template: proof/Proof/KI/Kit.lean (hand-written). -/
/-
  The word-level kernel's program around its one pipelined region, for any float instance.

  @main is twelve host operations (the three inputs joined along the rows, their bf16 copies, the rows' sums of
  squares laid out as a column and as a row), the region, and thirty-four host operations after it.  This module
  fixes what the region finds in every buffer (the host prefix applied to the launch memory), shows that @main is
  that prefix, the region, and the remaining lines, that those lines touch only unscoped buffers, allocate nothing
  and write none of the region's five arrays, and reads each window's block at a grid point off the array the
  region finds.  A window that only feeds the body holds its block whenever the body runs.
-/
import proofs.«170701_j91010357002637_1_alg».proof.Proof.Gen.Kernel.Launch
import proofs.«170701_j91010357002637_1_alg».proof.Proof.Gen.Kernel.Skeleton
import proofs.«170701_j91010357002637_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The lines after the region, stretch by stretch. -/
abbrev tailOps : List (List (HloOp τ sig (Elt F))) := [hostOps1, hostOps1_1, hostOps1_2]

/-- What each buffer of core `c` holds when the region is entered: the host prefix applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host prefix, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The buffers the lines after the region write: each line's own result. -/
abbrev tailWrites : List (Ref sig .tc) :=
  [main_v11, main_v12, main_v13, main_cst_1, main_v14, main_v15, main_v16, main_v17, main_cst_2, main_v18, main_v19, main_v20,
   main_cst_3, main_v21, main_v22, main_v23, main_cst_4, main_v24, main_v25, main_v26, main_v27, main_v28, main_v29, main_cst_5,
   main_v30, main_v31, main_call0_cst, main_call0_v0, main_v32, main_v33, main_cst_6, main_v34, main_cst_7, main_v35]

theorem tail_writes_sub : ((tailOps (F := F)).flatten).Forall fun op => op.writes ⊆ ((tailWrites.map (Proc.devRef (τ := τ) .tc)).toFinset) := by
  simp only [tailOps, hostOps1, hostOps1_1, hostOps1_2, List.flatten_cons, List.flatten_nil, List.append_nil, List.cons_append,
    List.nil_append, List.Forall]
  repeat' apply And.intro
  all_goals (intro b hb; rw [show b = _ from Finset.mem_singleton.mp hb]; decide)

/-- None of them writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w hw
  have hmem : op ∈ (tailOps (F := F)).flatten := List.mem_flatten.mpr ⟨ops, hops, hop⟩
  have := (List.forall_iff_forall_mem.mp (tail_writes_sub (F := F))) op hmem hw
  obtain ⟨y, hy, he⟩ := List.mem_map.mp (List.mem_toFinset.mp this)
  have : Pipeline.arrRef spec0 w ∈ tailWrites := (Proc.devRef_injective _ he) ▸ hy
  revert this; fin_cases w <;> decide

/-- The host prefix writes none of the three inputs: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the scratch -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The running-minimum scratch: a whole scoped buffer of the kernel's own. -/
abbrev scM : Memref sig .tc .vmem S1024x1 .f32 := Memref.whole cc0_scratch0

/-- The region's invariant: the scratch owned at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.Body.lean ====
/- Template: proof/Proof/KI/Body.lean (hand-written). -/
/-
  The kernel body at one grid point, for any float instance.

  At a point the body reads the four input blocks, forms the tile of distances with the three self columns of
  every row set to +inf, takes each row's minimum over the tile's 512 columns, folds it into the running minimum
  kept in the scratch column, and copies the scratch to the output block.  At the first point of a row tile
  (second grid coordinate zero) the scratch is first reset to +inf.  So both the scratch and the output block end
  at ONE function of the four blocks and of what the scratch held: `step`.
-/
import proofs.«170701_j91010357002637_1_alg».proof.Proof.Gen.Kernel.Launch
import proofs.«170701_j91010357002637_1_alg».proof.Proof.Gen.Kernel.Skeleton
import proofs.«170701_j91010357002637_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One point's update of the running minimum: the new column from the four input blocks and the old column. -/
def step (i : grid0.Coords) (x0 : Vec F S1024x512 .bf16) (x1 : Vec F S512x512 .bf16) (x2 : Vec F S1024x1 .f32) (x3 : Vec F S1x512 .f32) (prev : Vec F S1024x1 .f32) : Vec F S1024x1 .f32 :=
  k0_pay1 (k0_pay3 x0 x1 x2 x3) (k0_pay4 i) (k0_pay5 (F := F)) prev

/-- The reset value: +inf in every row. -/
abbrev top : Vec F S1024x1 .f32 := k0_pay2 (F := F)

theorem hz00 : (![0, 0] : Fin 2 → Nat) = fun _ => 0 := by funext a; fin_cases a <;> rfl

/-- What a buffer reads after stores the last of which covers the whole shape: that store's payload. -/
theorem read_writes_cons_whole [∀ e, Nonempty (Elt F e)] {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load of the whole shape after such stores reads the same payload. -/
theorem readCov_cons_whole [∀ e, Nonempty (Elt F e)] {κ : Kind} {sp : Space} {S : Shape} {e : EltTy} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

/-- The body's one branch: "this is the first column tile of the row tile". -/
abbrev cond0 (i : grid0.Coords) : Prop := (Scalar.cmpi .ne (Scalar.extui (Scalar.cmpi .eq (BitVec.ofNat 32 (i 1).val) 0#32)) 0#32) = 1#1
/-- It holds at the points ≡ 0 (mod 24). -/
theorem hcond0 : ∀ t : Fin cfg0.N, cond0 (grid0.coords t) ↔ t.val % 24 = 0 :=
  (by decide +kernel : ∀ t : Fin grid0.N, cond0 (grid0.coords t) ↔ t.val % 24 = 0)

/-- The update from loads of the four whole blocks is the update from the blocks' contents. -/
theorem step_of_loads [∀ e, Nonempty (Elt F e)] (i : grid0.Coords) (arg2 : Memref sig .tc .vmem S1024x512 .bf16) (arg3 : Memref sig .tc .vmem S512x512 .bf16) (arg4 : Memref sig .tc .vmem S1024x1 .f32) (arg5 : Memref sig .tc .vmem S1x512 .f32) (arg7 : Memref sig .tc .vmem S1024x1 .f32)
    (f0 : arg2.view.ty.Contents (Elt F)) (f1 : arg3.view.ty.Contents (Elt F)) (f2 : arg4.view.ty.Contents (Elt F)) (f3 : arg5.view.ty.Contents (Elt F))
    (prev : Vec F S1024x1 .f32) :
    k0_pay1 (k0_pay3 (View.readAt (Elt F) arg2.view (Rect.unit (s := S1024x512) ![0, 0] S1024x512.size inb_S1024x512_S1024x512_0_0).toLoadRect f0)
        (View.readAt (Elt F) arg3.view (Rect.unit (s := S512x512) ![0, 0] S512x512.size inb_S512x512_S512x512_0_0).toLoadRect f1)
        (View.readAt (Elt F) arg4.view (Rect.unit (s := S1024x1) ![0, 0] S1024x1.size inb_S1024x1_S1024x1_0_0).toLoadRect f2)
        (View.readAt (Elt F) arg5.view (Rect.unit (s := S1x512) ![0, 0] S1x512.size inb_S1x512_S1x512_0_0).toLoadRect f3))
      (k0_pay4 i) (k0_pay5 (F := F)) prev
    = step i (View.read (Elt F) arg2.view f0) (View.read (Elt F) arg3.view f1) (View.read (Elt F) arg4.view f2) (View.read (Elt F) arg5.view f3) prev := by
  unfold step
  rw [View.readAt_eq_ld, View.readAt_eq_ld, View.readAt_eq_ld, View.readAt_eq_ld,
    View.ld_unit_zero (S := S1024x512) hz00, View.ld_unit_zero (S := S512x512) hz00, View.ld_unit_zero (S := S1024x1) hz00, View.ld_unit_zero (S := S1x512) hz00]

/-- The same with the old column loaded whole from the scratch. -/
theorem step_of_loads' [∀ e, Nonempty (Elt F e)] (i : grid0.Coords) (arg2 : Memref sig .tc .vmem S1024x512 .bf16) (arg3 : Memref sig .tc .vmem S512x512 .bf16) (arg4 : Memref sig .tc .vmem S1024x1 .f32) (arg5 : Memref sig .tc .vmem S1x512 .f32) (arg7 : Memref sig .tc .vmem S1024x1 .f32)
    (f0 : arg2.view.ty.Contents (Elt F)) (f1 : arg3.view.ty.Contents (Elt F)) (f2 : arg4.view.ty.Contents (Elt F)) (f3 : arg5.view.ty.Contents (Elt F))
    (f5 : arg7.view.ty.Contents (Elt F)) :
    k0_pay1 (k0_pay3 (View.readAt (Elt F) arg2.view (Rect.unit (s := S1024x512) ![0, 0] S1024x512.size inb_S1024x512_S1024x512_0_0).toLoadRect f0)
        (View.readAt (Elt F) arg3.view (Rect.unit (s := S512x512) ![0, 0] S512x512.size inb_S512x512_S512x512_0_0).toLoadRect f1)
        (View.readAt (Elt F) arg4.view (Rect.unit (s := S1024x1) ![0, 0] S1024x1.size inb_S1024x1_S1024x1_0_0).toLoadRect f2)
        (View.readAt (Elt F) arg5.view (Rect.unit (s := S1x512) ![0, 0] S1x512.size inb_S1x512_S1x512_0_0).toLoadRect f3))
      (k0_pay4 i) (k0_pay5 (F := F)) (View.readAt (Elt F) arg7.view (Rect.unit (s := S1024x1) ![0, 0] S1024x1.size inb_S1024x1_S1024x1_0_0).toLoadRect f5)
    = step i (View.read (Elt F) arg2.view f0) (View.read (Elt F) arg3.view f1) (View.read (Elt F) arg4.view f2) (View.read (Elt F) arg5.view f3) (View.read (Elt F) arg7.view f5) := by
  rw [View.readAt_eq_ld (v := arg7.view), View.ld_unit_zero (S := S1024x1) hz00]
  exact step_of_loads i arg2 arg3 arg4 arg5 arg7 f0 f1 f2 f3 _

set_option maxHeartbeats 4000000 in
/-- At the first column tile: whatever the scratch held, scratch and output end at `step` from +inf. -/
theorem sound_kernel_first (c : Dev nD) (E : Set ℕ) (i : grid0.Coords) (hc : cond0 i) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole)
    (x0 : Vec F S1024x512 .bf16) (x1 : Vec F S512x512 .bf16) (x2 : Vec F S1024x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step i x0 x1 x2 x3 top) ∗ owns (c : Thread nD τ) arg7 fullShare (step i x0 x1 x2 x3 top)) -∗ K ⟨⟩))
      ⊢ wp frame (wpE (defs₀ (F := F)) Variants.none c none) E (cc0__negval_kernel i arg2 harg2 arg3 harg3 arg4 harg4 arg5 harg5 arg6 harg6 arg7 harg7) K := by
  simp only [cc0__negval_kernel_eq_skeleton]; unfold cc0__negval_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_whole (S := S1024x1) _ _ hz00 _ _ _).trans ?_
    sl_unfold_words
    refine (readCov_cons_whole (S := S1024x1) _ hz00 _ _ _).trans ?_
    refine (congrArg _ (View.readCov_unit_zero (S := S1024x1) _ hz00 _ _)).trans ?_
    exact step_of_loads i arg2 arg3 arg4 arg5 arg7 f0 f1 f2 f3 top
  · iexists _; isplitr
    swap; · iexact H5
    ipureintro
    sl_unfold_words
    refine (read_writes_cons_whole (S := S1024x1) _ _ hz00 _ _ _).trans ?_
    refine (congrArg _ (View.readCov_unit_zero (S := S1024x1) _ hz00 _ _)).trans ?_
    exact step_of_loads i arg2 arg3 arg4 arg5 arg7 f0 f1 f2 f3 top

set_option maxHeartbeats 4000000 in
/-- At a later column tile: scratch and output end at `step` from what the scratch held. -/
theorem sound_kernel_later (c : Dev nD) (E : Set ℕ) (i : grid0.Coords) (hc : ¬cond0 i) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole)
    (x0 : Vec F S1024x512 .bf16) (x1 : Vec F S512x512 .bf16) (x2 : Vec F S1024x1 .f32) (x3 : Vec F S1x512 .f32) (xs : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step i x0 x1 x2 x3 xs) ∗ owns (c : Thread nD τ) arg7 fullShare (step i x0 x1 x2 x3 xs)) -∗ K ⟨⟩))
      ⊢ wp frame (wpE (defs₀ (F := F)) Variants.none c none) E (cc0__negval_kernel i arg2 harg2 arg3 harg3 arg4 harg4 arg5 harg5 arg6 harg6 arg7 harg7) K := by
  simp only [cc0__negval_kernel_eq_skeleton]; unfold cc0__negval_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_whole (S := S1024x1) _ _ hz00 _ _ _).trans ?_
    sl_unfold_words
    refine (readCov_cons_whole (S := S1024x1) _ hz00 _ _ _).trans ?_
    exact step_of_loads' i arg2 arg3 arg4 arg5 arg7 f0 f1 f2 f3 f5
  · iexists _; isplitr
    swap; · iexact H5
    ipureintro
    sl_unfold_words
    refine (read_writes_cons_whole (S := S1024x1) _ _ hz00 _ _ _).trans ?_
    exact step_of_loads' i arg2 arg3 arg4 arg5 arg7 f0 f1 f2 f3 f5

end Cert.Kernel.Hand

end
-- ==== Proof.K.Frame.lean ====
/- Template: proof/Proof/KI/Frame.lean (hand-written). -/
/-
  The run of the word-level kernel's program and its frame, for any float instance.

  The running minimum is carried in the scratch column from one grid point to the next: after point n it holds
  `accAt n`, which restarts from +inf at every point ≡ 0 (mod 24) (the first column tile of a row tile) and is
  otherwise `step` of the point's four input blocks over what the point before left.  The output block is
  overwritten with the same column at every point.  With these contents as proof data the body meets its
  obligation at every point, so every fair execution of @main terminates, the region's arrays end at what the
  library computes from the proof data, and every other buffer at what the lines after the region leave; in
  particular the three inputs are unchanged.
-/
import proofs.«170701_j91010357002637_1_alg».proof.Proof.K.Kit
import proofs.«170701_j91010357002637_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running minimum after each point -/

/-- What the scratch column (and the output block) holds after the body at position `n`. -/
def accAt (c : Dev nD) : (n : ℕ) → n < cfg0.N → Vec F S1024x1 .f32
  | 0, hn => step (grid0.coords ⟨0, hn⟩) (iblk m c 0 ⟨0, hn⟩) (iblk m c 1 ⟨0, hn⟩) (iblk m c 2 ⟨0, hn⟩) (iblk m c 3 ⟨0, hn⟩) top
  | n + 1, hn =>
    if (n + 1) % 24 = 0 then
      step (grid0.coords ⟨n + 1, hn⟩) (iblk m c 0 ⟨n + 1, hn⟩) (iblk m c 1 ⟨n + 1, hn⟩) (iblk m c 2 ⟨n + 1, hn⟩) (iblk m c 3 ⟨n + 1, hn⟩) top
    else
      step (grid0.coords ⟨n + 1, hn⟩) (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- At the first column tile of a row tile the minimum restarts from +inf. -/
theorem accAt_first (c : Dev nD) (t : Fin cfg0.N) (h0 : t.val % 24 = 0) :
    accAt m c t.val t.isLt = step (grid0.coords t) (iblk m c 0 t) (iblk m c 1 t) (iblk m c 2 t) (iblk m c 3 t) top := by
  obtain ⟨n, hn⟩ := t
  cases n with
  | zero => rfl
  | succ n => exact (if_pos h0)

/-- At a later column tile it continues from what the point before left. -/
theorem accAt_later (c : Dev nD) (t : Fin cfg0.N) (h0 : ¬t.val % 24 = 0) :
    accAt m c t.val t.isLt = step (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h0
  | succ n => exact (if_neg h0)

/-- The region invariant before position `n`: before the first point the scratch at anything; afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The proof data of the pipeline on core `c`: the arrays as the region finds them; after the body at point `t` each
    input's buffer at its block and the output's at the running minimum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4800000 in
/-- The body at any point: the inputs' buffers hold their blocks; the point is either the first column tile of its row
    tile, where the scratch (at anything, or at what the previous row tile left) is reset, or a later one, where the
    scratch holds what the point before left; either way scratch and output end at this point's running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4]
  have hN : t.val < 96 := lt_of_lt_of_eq t.isLt (show cfg0.N = 96 from N_0)
  by_cases h0 : t.val % 24 = 0
  · rw [accAt_first m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply (sound_kernel_first c Set.univ (grid0.coords t) ((hcond0 t).mpr h0) _ _ _ _ _ _ _ _ _ _ _ _ (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (sound_kernel_first c Set.univ (grid0.coords t) ((hcond0 t).mpr h0) _ _ _ _ _ _ _ _ _ _ _ _ (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
  · rw [accAt_later m c t h0]
    have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply (sound_kernel_later c Set.univ (grid0.coords t) (fun h => h0 ((hcond0 t).mp h)) _ _ _ _ _ _ _ _ _ _ _ _ (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS, Hg⟩
  isplitl [HS]
  · iexists _; iexact HS
  iexact Hg

/-! ## The run and the frame -/

set_option backward.isDefEq.respectTransparency.types false in
/-- Every weakly fair execution of @main terminates; the region's arrays end at what the library computes from the proof
    data, every other unscoped buffer at what the lines after the region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- A buffer that is neither written by the lines after the region nor an array of the region ends as launched, when the
    host prefix does not write it either. -/
theorem tail_keeps (c : Dev nD) (b : Ref sig .tc) (hb : b ∉ tailWrites) (ha : ∀ w, Pipeline.arrRef spec0 w ≠ b) :
    Pipeline.afterTail₀ cfgs (dats m) 0 (V0 m) tailOps c b = V m c b := by
  unfold Pipeline.afterTail₀
  rw [StableHlo.after_of_writes_sub (W := tailWrites) _ _ (tail_writes_sub (F := F)) hb]
  exact Pipeline.withArrays_of_ne _ c _ _ b ha

/-- THE FRAME: the three inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans ((tail_keeps m c main_arg0 (by decide) (by decide)).trans (V_main_arg0 m c)),
     ((h c).2 main_arg1 (Pipeline.mem_restRefs_of main_arg1 (by decide) (by decide))).trans ((tail_keeps m c main_arg1 (by decide) (by decide)).trans (V_main_arg1 m c)),
     ((h c).2 main_arg2 (Pipeline.mem_restRefs_of main_arg2 (by decide) (by decide))).trans ((tail_keeps m c main_arg2 (by decide) (by decide)).trans (V_main_arg2 m c))⟩)
    (run_main m ρ)

end Cert.Kernel.Hand

end
-- ==== Proof.KI.Kit.lean ====
/-
  The idealized kernel's program around its one pipelined region, for any float instance.

  @main is twelve host operations (the three inputs joined along the rows, their bf16 copies, the rows' sums of
  squares laid out as a column and as a row), the region, and thirty-four host operations after it.  This module
  fixes what the region finds in every buffer (the host prefix applied to the launch memory), shows that @main is
  that prefix, the region, and the remaining lines, that those lines touch only unscoped buffers, allocate nothing
  and write none of the region's five arrays, and reads each window's block at a grid point off the array the
  region finds.  A window that only feeds the body holds its block whenever the body runs.
-/
import proofs.«170701_j91010357002637_1_alg».proof.Proof.Gen.KernelIdeal.Launch
import proofs.«170701_j91010357002637_1_alg».proof.Proof.Gen.KernelIdeal.Skeleton
import proofs.«170701_j91010357002637_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The lines after the region, stretch by stretch. -/
abbrev tailOps : List (List (HloOp τ sig (Elt F))) := [hostOps1, hostOps1_1, hostOps1_2]

/-- What each buffer of core `c` holds when the region is entered: the host prefix applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host prefix, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The buffers the lines after the region write: each line's own result. -/
abbrev tailWrites : List (Ref sig .tc) :=
  [main_v11, main_v12, main_v13, main_cst_1, main_v14, main_v15, main_v16, main_v17, main_cst_2, main_v18, main_v19, main_v20,
   main_cst_3, main_v21, main_v22, main_v23, main_cst_4, main_v24, main_v25, main_v26, main_v27, main_v28, main_v29, main_cst_5,
   main_v30, main_v31, main_call0_cst, main_call0_v0, main_v32, main_v33, main_cst_6, main_v34, main_cst_7, main_v35]

theorem tail_writes_sub : ((tailOps (F := F)).flatten).Forall fun op => op.writes ⊆ ((tailWrites.map (Proc.devRef (τ := τ) .tc)).toFinset) := by
  simp only [tailOps, hostOps1, hostOps1_1, hostOps1_2, List.flatten_cons, List.flatten_nil, List.append_nil, List.cons_append,
    List.nil_append, List.Forall]
  repeat' apply And.intro
  all_goals (intro b hb; rw [show b = _ from Finset.mem_singleton.mp hb]; decide)

/-- None of them writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w hw
  have hmem : op ∈ (tailOps (F := F)).flatten := List.mem_flatten.mpr ⟨ops, hops, hop⟩
  have := (List.forall_iff_forall_mem.mp (tail_writes_sub (F := F))) op hmem hw
  obtain ⟨y, hy, he⟩ := List.mem_map.mp (List.mem_toFinset.mp this)
  have : Pipeline.arrRef spec0 w ∈ tailWrites := (Proc.devRef_injective _ he) ▸ hy
  revert this; fin_cases w <;> decide

/-- The host prefix writes none of the three inputs: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs and the scratch -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The running-minimum scratch: a whole scoped buffer of the kernel's own. -/
abbrev scM : Memref sig .tc .vmem S1024x1 .f32 := Memref.whole cc0_scratch0

/-- The region's invariant: the scratch owned at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.Body.lean ====
/-
  The kernel body at one grid point, for any float instance.

  At a point the body reads the four input blocks, forms the tile of distances with the three self columns of
  every row set to +inf, takes each row's minimum over the tile's 512 columns, folds it into the running minimum
  kept in the scratch column, and copies the scratch to the output block.  At the first point of a row tile
  (second grid coordinate zero) the scratch is first reset to +inf.  So both the scratch and the output block end
  at ONE function of the four blocks and of what the scratch held: `step`.
-/
import proofs.«170701_j91010357002637_1_alg».proof.Proof.Gen.KernelIdeal.Launch
import proofs.«170701_j91010357002637_1_alg».proof.Proof.Gen.KernelIdeal.Skeleton
import proofs.«170701_j91010357002637_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One point's update of the running minimum: the new column from the four input blocks and the old column. -/
def step (i : grid0.Coords) (x0 : Vec F S1024x512 .bf16) (x1 : Vec F S512x512 .bf16) (x2 : Vec F S1024x1 .f32) (x3 : Vec F S1x512 .f32) (prev : Vec F S1024x1 .f32) : Vec F S1024x1 .f32 :=
  k0_pay1 (k0_pay3 x0 x1 x2 x3) (k0_pay4 i) (k0_pay5 (F := F)) prev

/-- The reset value: +inf in every row. -/
abbrev top : Vec F S1024x1 .f32 := k0_pay2 (F := F)

theorem hz00 : (![0, 0] : Fin 2 → Nat) = fun _ => 0 := by funext a; fin_cases a <;> rfl

/-- What a buffer reads after stores the last of which covers the whole shape: that store's payload. -/
theorem read_writes_cons_whole [∀ e, Nonempty (Elt F e)] {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load of the whole shape after such stores reads the same payload. -/
theorem readCov_cons_whole [∀ e, Nonempty (Elt F e)] {κ : Kind} {sp : Space} {S : Shape} {e : EltTy} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

/-- The body's one branch: "this is the first column tile of the row tile". -/
abbrev cond0 (i : grid0.Coords) : Prop := (Scalar.cmpi .ne (Scalar.extui (Scalar.cmpi .eq (BitVec.ofNat 32 (i 1).val) 0#32)) 0#32) = 1#1
/-- It holds at the points ≡ 0 (mod 24). -/
theorem hcond0 : ∀ t : Fin cfg0.N, cond0 (grid0.coords t) ↔ t.val % 24 = 0 :=
  (by decide +kernel : ∀ t : Fin grid0.N, cond0 (grid0.coords t) ↔ t.val % 24 = 0)

/-- The update from loads of the four whole blocks is the update from the blocks' contents. -/
theorem step_of_loads [∀ e, Nonempty (Elt F e)] (i : grid0.Coords) (arg2 : Memref sig .tc .vmem S1024x512 .bf16) (arg3 : Memref sig .tc .vmem S512x512 .bf16) (arg4 : Memref sig .tc .vmem S1024x1 .f32) (arg5 : Memref sig .tc .vmem S1x512 .f32) (arg7 : Memref sig .tc .vmem S1024x1 .f32)
    (f0 : arg2.view.ty.Contents (Elt F)) (f1 : arg3.view.ty.Contents (Elt F)) (f2 : arg4.view.ty.Contents (Elt F)) (f3 : arg5.view.ty.Contents (Elt F))
    (prev : Vec F S1024x1 .f32) :
    k0_pay1 (k0_pay3 (View.readAt (Elt F) arg2.view (Rect.unit (s := S1024x512) ![0, 0] S1024x512.size inb_S1024x512_S1024x512_0_0).toLoadRect f0)
        (View.readAt (Elt F) arg3.view (Rect.unit (s := S512x512) ![0, 0] S512x512.size inb_S512x512_S512x512_0_0).toLoadRect f1)
        (View.readAt (Elt F) arg4.view (Rect.unit (s := S1024x1) ![0, 0] S1024x1.size inb_S1024x1_S1024x1_0_0).toLoadRect f2)
        (View.readAt (Elt F) arg5.view (Rect.unit (s := S1x512) ![0, 0] S1x512.size inb_S1x512_S1x512_0_0).toLoadRect f3))
      (k0_pay4 i) (k0_pay5 (F := F)) prev
    = step i (View.read (Elt F) arg2.view f0) (View.read (Elt F) arg3.view f1) (View.read (Elt F) arg4.view f2) (View.read (Elt F) arg5.view f3) prev := by
  unfold step
  rw [View.readAt_eq_ld, View.readAt_eq_ld, View.readAt_eq_ld, View.readAt_eq_ld,
    View.ld_unit_zero (S := S1024x512) hz00, View.ld_unit_zero (S := S512x512) hz00, View.ld_unit_zero (S := S1024x1) hz00, View.ld_unit_zero (S := S1x512) hz00]

/-- The same with the old column loaded whole from the scratch. -/
theorem step_of_loads' [∀ e, Nonempty (Elt F e)] (i : grid0.Coords) (arg2 : Memref sig .tc .vmem S1024x512 .bf16) (arg3 : Memref sig .tc .vmem S512x512 .bf16) (arg4 : Memref sig .tc .vmem S1024x1 .f32) (arg5 : Memref sig .tc .vmem S1x512 .f32) (arg7 : Memref sig .tc .vmem S1024x1 .f32)
    (f0 : arg2.view.ty.Contents (Elt F)) (f1 : arg3.view.ty.Contents (Elt F)) (f2 : arg4.view.ty.Contents (Elt F)) (f3 : arg5.view.ty.Contents (Elt F))
    (f5 : arg7.view.ty.Contents (Elt F)) :
    k0_pay1 (k0_pay3 (View.readAt (Elt F) arg2.view (Rect.unit (s := S1024x512) ![0, 0] S1024x512.size inb_S1024x512_S1024x512_0_0).toLoadRect f0)
        (View.readAt (Elt F) arg3.view (Rect.unit (s := S512x512) ![0, 0] S512x512.size inb_S512x512_S512x512_0_0).toLoadRect f1)
        (View.readAt (Elt F) arg4.view (Rect.unit (s := S1024x1) ![0, 0] S1024x1.size inb_S1024x1_S1024x1_0_0).toLoadRect f2)
        (View.readAt (Elt F) arg5.view (Rect.unit (s := S1x512) ![0, 0] S1x512.size inb_S1x512_S1x512_0_0).toLoadRect f3))
      (k0_pay4 i) (k0_pay5 (F := F)) (View.readAt (Elt F) arg7.view (Rect.unit (s := S1024x1) ![0, 0] S1024x1.size inb_S1024x1_S1024x1_0_0).toLoadRect f5)
    = step i (View.read (Elt F) arg2.view f0) (View.read (Elt F) arg3.view f1) (View.read (Elt F) arg4.view f2) (View.read (Elt F) arg5.view f3) (View.read (Elt F) arg7.view f5) := by
  rw [View.readAt_eq_ld (v := arg7.view), View.ld_unit_zero (S := S1024x1) hz00]
  exact step_of_loads i arg2 arg3 arg4 arg5 arg7 f0 f1 f2 f3 _

set_option maxHeartbeats 4000000 in
/-- At the first column tile: whatever the scratch held, scratch and output end at `step` from +inf. -/
theorem sound_kernel_first (c : Dev nD) (E : Set ℕ) (i : grid0.Coords) (hc : cond0 i) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole)
    (x0 : Vec F S1024x512 .bf16) (x1 : Vec F S512x512 .bf16) (x2 : Vec F S1024x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step i x0 x1 x2 x3 top) ∗ owns (c : Thread nD τ) arg7 fullShare (step i x0 x1 x2 x3 top)) -∗ K ⟨⟩))
      ⊢ wp frame (wpE (defs₀ (F := F)) Variants.none c none) E (cc0__negval_kernel i arg2 harg2 arg3 harg3 arg4 harg4 arg5 harg5 arg6 harg6 arg7 harg7) K := by
  simp only [cc0__negval_kernel_eq_skeleton]; unfold cc0__negval_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_whole (S := S1024x1) _ _ hz00 _ _ _).trans ?_
    sl_unfold_words
    refine (readCov_cons_whole (S := S1024x1) _ hz00 _ _ _).trans ?_
    refine (congrArg _ (View.readCov_unit_zero (S := S1024x1) _ hz00 _ _)).trans ?_
    exact step_of_loads i arg2 arg3 arg4 arg5 arg7 f0 f1 f2 f3 top
  · iexists _; isplitr
    swap; · iexact H5
    ipureintro
    sl_unfold_words
    refine (read_writes_cons_whole (S := S1024x1) _ _ hz00 _ _ _).trans ?_
    refine (congrArg _ (View.readCov_unit_zero (S := S1024x1) _ hz00 _ _)).trans ?_
    exact step_of_loads i arg2 arg3 arg4 arg5 arg7 f0 f1 f2 f3 top

set_option maxHeartbeats 4000000 in
/-- At a later column tile: scratch and output end at `step` from what the scratch held. -/
theorem sound_kernel_later (c : Dev nD) (E : Set ℕ) (i : grid0.Coords) (hc : ¬cond0 i) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .f32) (harg6 : arg6.IsWhole) (arg7 : Memref sig .tc .vmem S1024x1 .f32) (harg7 : arg7.IsWhole)
    (x0 : Vec F S1024x512 .bf16) (x1 : Vec F S512x512 .bf16) (x2 : Vec F S1024x1 .f32) (x3 : Vec F S1x512 .f32) (xs : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step i x0 x1 x2 x3 xs) ∗ owns (c : Thread nD τ) arg7 fullShare (step i x0 x1 x2 x3 xs)) -∗ K ⟨⟩))
      ⊢ wp frame (wpE (defs₀ (F := F)) Variants.none c none) E (cc0__negval_kernel i arg2 harg2 arg3 harg3 arg4 harg4 arg5 harg5 arg6 harg6 arg7 harg7) K := by
  simp only [cc0__negval_kernel_eq_skeleton]; unfold cc0__negval_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_cons_whole (S := S1024x1) _ _ hz00 _ _ _).trans ?_
    sl_unfold_words
    refine (readCov_cons_whole (S := S1024x1) _ hz00 _ _ _).trans ?_
    exact step_of_loads' i arg2 arg3 arg4 arg5 arg7 f0 f1 f2 f3 f5
  · iexists _; isplitr
    swap; · iexact H5
    ipureintro
    sl_unfold_words
    refine (read_writes_cons_whole (S := S1024x1) _ _ hz00 _ _ _).trans ?_
    exact step_of_loads' i arg2 arg3 arg4 arg5 arg7 f0 f1 f2 f3 f5

end Cert.KernelIdeal.Hand

end
-- ==== Proof.KI.Frame.lean ====
/-
  The run of the idealized kernel's program and its frame, for any float instance.

  The running minimum is carried in the scratch column from one grid point to the next: after point n it holds
  `accAt n`, which restarts from +inf at every point ≡ 0 (mod 24) (the first column tile of a row tile) and is
  otherwise `step` of the point's four input blocks over what the point before left.  The output block is
  overwritten with the same column at every point.  With these contents as proof data the body meets its
  obligation at every point, so every fair execution of @main terminates, the region's arrays end at what the
  library computes from the proof data, and every other buffer at what the lines after the region leave; in
  particular the three inputs are unchanged.
-/
import proofs.«170701_j91010357002637_1_alg».proof.Proof.KI.Kit
import proofs.«170701_j91010357002637_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running minimum after each point -/

/-- What the scratch column (and the output block) holds after the body at position `n`. -/
def accAt (c : Dev nD) : (n : ℕ) → n < cfg0.N → Vec F S1024x1 .f32
  | 0, hn => step (grid0.coords ⟨0, hn⟩) (iblk m c 0 ⟨0, hn⟩) (iblk m c 1 ⟨0, hn⟩) (iblk m c 2 ⟨0, hn⟩) (iblk m c 3 ⟨0, hn⟩) top
  | n + 1, hn =>
    if (n + 1) % 24 = 0 then
      step (grid0.coords ⟨n + 1, hn⟩) (iblk m c 0 ⟨n + 1, hn⟩) (iblk m c 1 ⟨n + 1, hn⟩) (iblk m c 2 ⟨n + 1, hn⟩) (iblk m c 3 ⟨n + 1, hn⟩) top
    else
      step (grid0.coords ⟨n + 1, hn⟩) (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- At the first column tile of a row tile the minimum restarts from +inf. -/
theorem accAt_first (c : Dev nD) (t : Fin cfg0.N) (h0 : t.val % 24 = 0) :
    accAt m c t.val t.isLt = step (grid0.coords t) (iblk m c 0 t) (iblk m c 1 t) (iblk m c 2 t) (iblk m c 3 t) top := by
  obtain ⟨n, hn⟩ := t
  cases n with
  | zero => rfl
  | succ n => exact (if_pos h0)

/-- At a later column tile it continues from what the point before left. -/
theorem accAt_later (c : Dev nD) (t : Fin cfg0.N) (h0 : ¬t.val % 24 = 0) :
    accAt m c t.val t.isLt = step (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h0
  | succ n => exact (if_neg h0)

/-- The region invariant before position `n`: before the first point the scratch at anything; afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The proof data of the pipeline on core `c`: the arrays as the region finds them; after the body at point `t` each
    input's buffer at its block and the output's at the running minimum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4800000 in
/-- The body at any point: the inputs' buffers hold their blocks; the point is either the first column tile of its row
    tile, where the scratch (at anything, or at what the previous row tile left) is reset, or a later one, where the
    scratch holds what the point before left; either way scratch and output end at this point's running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4]
  have hN : t.val < 96 := lt_of_lt_of_eq t.isLt (show cfg0.N = 96 from N_0)
  by_cases h0 : t.val % 24 = 0
  · rw [accAt_first m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply (sound_kernel_first c Set.univ (grid0.coords t) ((hcond0 t).mpr h0) _ _ _ _ _ _ _ _ _ _ _ _ (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (sound_kernel_first c Set.univ (grid0.coords t) ((hcond0 t).mpr h0) _ _ _ _ _ _ _ _ _ _ _ _ (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
  · rw [accAt_later m c t h0]
    have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply (sound_kernel_later c Set.univ (grid0.coords t) (fun h => h0 ((hcond0 t).mp h)) _ _ _ _ _ _ _ _ _ _ _ _ (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS, Hg⟩
  isplitl [HS]
  · iexists _; iexact HS
  iexact Hg

/-! ## The run and the frame -/

set_option backward.isDefEq.respectTransparency.types false in
/-- Every weakly fair execution of @main terminates; the region's arrays end at what the library computes from the proof
    data, every other unscoped buffer at what the lines after the region leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- A buffer that is neither written by the lines after the region nor an array of the region ends as launched, when the
    host prefix does not write it either. -/
theorem tail_keeps (c : Dev nD) (b : Ref sig .tc) (hb : b ∉ tailWrites) (ha : ∀ w, Pipeline.arrRef spec0 w ≠ b) :
    Pipeline.afterTail₀ cfgs (dats m) 0 (V0 m) tailOps c b = V m c b := by
  unfold Pipeline.afterTail₀
  rw [StableHlo.after_of_writes_sub (W := tailWrites) _ _ (tail_writes_sub (F := F)) hb]
  exact Pipeline.withArrays_of_ne _ c _ _ b ha

/-- THE FRAME: the three inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans ((tail_keeps m c main_arg0 (by decide) (by decide)).trans (V_main_arg0 m c)),
     ((h c).2 main_arg1 (Pipeline.mem_restRefs_of main_arg1 (by decide) (by decide))).trans ((tail_keeps m c main_arg1 (by decide) (by decide)).trans (V_main_arg1 m c)),
     ((h c).2 main_arg2 (Pipeline.mem_restRefs_of main_arg2 (by decide) (by decide))).trans ((tail_keeps m c main_arg2 (by decide) (by decide)).trans (V_main_arg2 m c))⟩)
    (run_main m ρ)

end Cert.KernelIdeal.Hand

end
-- ==== Proof.Spec.lean ====
/-
  The loss both programs compute, as functions of the three input matrices over the extended reals.

  With a, b, c three 4096 x 512 matrices and R their 12288 x 512 stack (a's rows, then b's, then c's), the clamped
  squared distance between row p of a and row q of R is  max (|a_p|^2 + |R_q|^2 - 2 <a_p, R_q>, 0),  written through
  the Gram expansion.  The kernel's distance is its square root; the reference's is a square root guarded against a
  zero argument and clamped at zero, which is the same number whenever the argument is not negative.  Row p's
  "negative value" is the minimum of its distances over all columns but the three self columns p, p+4096, p+8192
  (those are replaced by +inf).  The two "positive" distances of row p are |a_p - b_p| and |a_p - c_p|: the kernel
  computes them from the differences, the reference reads them off the distance matrix at the columns p+4096 and
  p+8192; over the REALS the Gram expansion of those two entries is the sum of squared differences, which is not
  negative, so the two agree when every input is finite.  Everything after these per-row quantities is one chain of
  host operations shared by the two programs (`tail`), never opened.
-/
import Idealize.ShloMosaic.PureOps
import Idealize.ShloMosaic.PureOps.Ideal
import Idealize.ShloMosaic.PureOps.Ideal.Laws
import Idealize.ShloMosaic.Lib.ValueIdx
import Mathlib.Data.Finset.Fold

noncomputable section

open scoped BigOperators

namespace DRC

open Idealize.ShloMosaic Idealize.ShloMosaic.ValueIdx

abbrev S_ : Shape := ⟨0, ![]⟩
abbrev S4096 : Shape := ⟨1, ![4096]⟩
abbrev S4096x512 : Shape := ⟨2, ![4096, 512]⟩

/-- A 4096 x 512 matrix of extended reals. -/
abbrev Mat := S4096x512.Idx → EReal

/-! ## The stacked rows and the clamped squared distance -/

/-- Row q of the stack of a, b, c along the rows, at column k. -/
def rows3 (a b c : Mat) (q : Fin 12288) (k : Fin 512) : EReal :=
  if h : q.val < 4096 then a (ix2 (⟨q.val, h⟩ : Fin 4096) k)
  else if h' : q.val < 8192 then b (ix2 (⟨q.val - 4096, by omega⟩ : Fin 4096) k)
  else c (ix2 (⟨q.val - 8192, by have := q.isLt; omega⟩ : Fin 4096) k)

/-- |a_p|^2 as the host sums it: zero plus the sum of squares. -/
def nrmA (a : Mat) (p : Fin 4096) : EReal := 0 + ∑ k : Fin 512, a (ix2 p k) * a (ix2 p k)
/-- |R_q|^2. -/
def nrmR (a b c : Mat) (q : Fin 12288) : EReal := 0 + ∑ k : Fin 512, rows3 a b c q k * rows3 a b c q k
/-- <a_p, R_q>. -/
def dotAR (a b c : Mat) (p : Fin 4096) (q : Fin 12288) : EReal := ∑ k : Fin 512, a (ix2 p k) * rows3 a b c q k
/-- The clamped squared distance between row p of a and row q of the stack. -/
def sqd (a b c : Mat) (p : Fin 4096) (q : Fin 12288) : EReal :=
  max ((nrmA a p + nrmR a b c q) - 2 * dotAR a b c p q) 0

/-- The kernel's distance from a clamped squared distance. -/
def distK (x : EReal) : EReal := Ideal.sqrt x
/-- The reference's: the square root where the argument is positive and zero elsewhere, clamped at zero. -/
def distR (x : EReal) : EReal := max (if 0 < x then Ideal.sqrt x else 0) 0

/-- Column q is one of row p's three self columns. -/
def same (p : Fin 4096) (q : Fin 12288) : Prop := q.val = p.val ∨ q.val = p.val + 4096 ∨ q.val = p.val + 8192
instance (p : Fin 4096) (q : Fin 12288) : Decidable (same p q) := by unfold same; infer_instance

/-- Row p's minimum of D p q over the columns, the self columns at +inf. -/
def negval (D : Fin 4096 → Fin 12288 → EReal) (p : Fin 4096) : EReal :=
  (Finset.univ : Finset (Fin 12288)).fold min ⊤ (fun q => if same p q then ⊤ else D p q)

/-- Zero plus the sum of squared differences of rows p of x and y. -/
def dsq (x y : Mat) (p : Fin 4096) : EReal := 0 + ∑ k : Fin 512, (x (ix2 p k) - y (ix2 p k)) * (x (ix2 p k) - y (ix2 p k))

/-! ## The literals that are evaluated -/

theorem lit_two : Ideal.ofBits .f32 0x40000000#32 = (2 : EReal) := by
  simp [Ideal.ofBits, Ideal.ieee, -EReal.coe_mul]; norm_num; rfl
theorem lit_inf : Ideal.ofBits .f32 0x7F800000#32 = (⊤ : EReal) := by
  simp [Ideal.ofBits, Ideal.ieee]
theorem lit_one : Ideal.ofBits .f32 0x3F800000#32 = (1 : EReal) := by
  simp [Ideal.ofBits, Ideal.ieee, -EReal.coe_mul]; norm_num

/-! ## The two distance forms agree on non-negative arguments -/

theorem sqd_nonneg (a b c : Mat) (p : Fin 4096) (q : Fin 12288) : 0 ≤ sqd a b c p q := le_max_right _ _

/-- The square root of zero is zero. -/
private theorem sqrt_zero : Ideal.sqrt 0 = 0 := by
  show Ideal.sqrt ((0 : ℝ) : EReal) = 0
  rw [Ideal.sqrt_coe, if_neg (lt_irrefl _), Real.sqrt_zero]; rfl

/-- The square root of a non-negative extended real is not negative. -/
private theorem sqrt_nonneg {x : EReal} (hx : 0 ≤ x) : 0 ≤ Ideal.sqrt x := by
  induction x using EReal.rec with
  | bot => exact absurd hx (by simp)
  | top => rw [Ideal.sqrt_top]; exact le_top
  | coe r =>
    have hr : 0 ≤ r := by exact_mod_cast hx
    rw [Ideal.sqrt_coe, if_neg (not_lt.mpr hr)]
    exact_mod_cast Real.sqrt_nonneg r

theorem distR_eq_distK {x : EReal} (hx : 0 ≤ x) : distR x = distK x := by
  unfold distR distK
  rcases hx.eq_or_lt with h | h
  · subst h
    rw [if_neg (lt_irrefl _), sqrt_zero, max_self]
  · rw [if_pos h]; exact max_eq_left (sqrt_nonneg hx)

/-! ## Over the reals the Gram expansion is the sum of squared differences -/

/-- Every entry is a real number. -/
def IsReal (x : Mat) : Prop := ∀ i, ∃ r : ℝ, x i = (r : EReal)

/-- Row p+4096 of the stack is row p of b. -/
theorem rows3_mid (a b c : Mat) (p : Fin 4096) (k : Fin 512) :
    rows3 a b c (⟨p.val + 4096, by have := p.isLt; omega⟩ : Fin 12288) k = b (ix2 p k) := by
  have hp := p.isLt
  unfold rows3
  rw [dif_neg (by show ¬ (p.val + 4096 < 4096); omega), dif_pos (by show p.val + 4096 < 8192; omega)]
  have e : (⟨p.val + 4096 - 4096, by omega⟩ : Fin 4096) = p := Fin.ext (by show p.val + 4096 - 4096 = p.val; omega)
  exact congrArg (fun t => b (ix2 t k)) e
/-- Row p+8192 of the stack is row p of c. -/
theorem rows3_last (a b c : Mat) (p : Fin 4096) (k : Fin 512) :
    rows3 a b c (⟨p.val + 8192, by have := p.isLt; omega⟩ : Fin 12288) k = c (ix2 p k) := by
  have hp := p.isLt
  unfold rows3
  rw [dif_neg (by show ¬ (p.val + 8192 < 4096); omega), dif_neg (by show ¬ (p.val + 8192 < 8192); omega)]
  have e : (⟨p.val + 8192 - 8192, by omega⟩ : Fin 4096) = p := Fin.ext (by show p.val + 8192 - 8192 = p.val; omega)
  exact congrArg (fun t => c (ix2 t k)) e

/-- The inclusion of the reals commutes with finite sums. -/
private theorem coe_sum {ι : Type*} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- For two real-valued rows x, y the clamped Gram expansion |x|^2 + |y|^2 - 2 <x, y> is the sum of squared
    differences: over the reals the two are equal by expanding each square, and a sum of squares is not negative. -/
private theorem gram_real {n : Nat} (x y : Fin n → EReal) (hx : ∀ k, ∃ r : ℝ, x k = (r : EReal))
    (hy : ∀ k, ∃ r : ℝ, y k = (r : EReal)) :
    max (((0 + ∑ k : Fin n, x k * x k) + (0 + ∑ k : Fin n, y k * y k)) - 2 * ∑ k : Fin n, x k * y k) 0
      = 0 + ∑ k : Fin n, (x k - y k) * (x k - y k) := by
  choose rx hrx using hx
  choose ry hry using hy
  obtain rfl : x = fun k => (rx k : EReal) := funext hrx
  obtain rfl : y = fun k => (ry k : EReal) := funext hry
  have h2 : (2 : EReal) = ((2 : ℝ) : EReal) := rfl
  simp only [zero_add, ← EReal.coe_mul, ← EReal.coe_sub, ← coe_sum]
  rw [h2, ← EReal.coe_add, ← EReal.coe_mul, ← EReal.coe_sub]
  have key : (∑ k : Fin n, rx k * rx k) + (∑ k : Fin n, ry k * ry k) - 2 * ∑ k : Fin n, rx k * ry k
      = ∑ k : Fin n, (rx k - ry k) * (rx k - ry k) := by
    rw [Finset.mul_sum, ← Finset.sum_add_distrib, ← Finset.sum_sub_distrib]
    exact Finset.sum_congr rfl fun k _ => by ring
  rw [key]
  exact max_eq_left (by exact_mod_cast Finset.sum_nonneg fun k _ => mul_self_nonneg (rx k - ry k))

/-- For finite inputs the clamped Gram expansion at column p+4096 is the sum of squared differences of a_p and b_p. -/
theorem sqd_mid (a b c : Mat) (ha : IsReal a) (hb : IsReal b) (p : Fin 4096) :
    sqd a b c p (⟨p.val + 4096, by have := p.isLt; omega⟩ : Fin 12288) = dsq a b p := by
  unfold sqd nrmA nrmR dotAR dsq
  simp only [rows3_mid]
  exact gram_real (fun k => a (ix2 p k)) (fun k => b (ix2 p k)) (fun k => ha _) (fun k => hb _)
/-- And at column p+8192, of a_p and c_p. -/
theorem sqd_last (a b c : Mat) (ha : IsReal a) (hc : IsReal c) (p : Fin 4096) :
    sqd a b c p (⟨p.val + 8192, by have := p.isLt; omega⟩ : Fin 12288) = dsq a c p := by
  unfold sqd nrmA nrmR dotAR dsq
  simp only [rows3_last]
  exact gram_real (fun k => a (ix2 p k)) (fun k => c (ix2 p k)) (fun k => ha _) (fun k => hc _)

/-! ## The operations shared by the two programs -/

/-- The distance between corresponding rows of x and y, as the host computes it from the difference. -/
def pairDist (hr : S4096x512.ReducesTo [1] S4096) (h0 : 0 < S_.numel) (x y : FVec Ideal S4096x512 .f32) : FVec Ideal S4096 .f32 :=
  Host.sqrt (F := Ideal) (Host.reduceAdd (F := Ideal) (mulf (subf x y) (subf x y)) (constant (F := Ideal) S_ .f32 0x00000000#32) hr h0)

/-- At row p it is the root of the sum of squared differences. -/
theorem pairDist_apply (hr : S4096x512.ReducesTo [1] S4096) (h0 : 0 < S_.numel) (x y : FVec Ideal S4096x512 .f32) (p : Fin 4096) :
    pairDist hr h0 x y (ix1 p) = distK (dsq x y p) := by
  have hR : S4096x512.Reduces [1] S4096 := by decide
  unfold pairDist distK dsq
  show FloatOps.hostUnary .sqrt (Host.reduceAdd (F := Ideal) (mulf (subf x y) (subf x y))
    (constant (F := Ideal) S_ .f32 0x00000000#32) hr h0 (ix1 p)) = _
  rw [Ideal.hostUnary_sqrt_def]
  simp only [Host.reduceAdd, Ideal.hostReduceAdd_def]
  rw [Ideal.hostReduceAdd_single hr hR]
  refine congrArg Ideal.sqrt ?_
  refine congrArg₂ (· + ·) Ideal.ofBits_zero_f32 (Finset.sum_congr rfl fun k _ => ?_)
  have e : hR.lift (ix1 p) k = ix2 p k := by
    funext d; apply Fin.ext
    match d with
    | ⟨0, _⟩ => rfl
    | ⟨1, _⟩ => rfl
  rw [e]; rfl

/-- The distance between corresponding rows of x and y with the constant 1e-6 (as an f32) added to every difference. -/
def pairDistEps (hbc : S_.BroadcastsInDim S4096x512 (![] : Fin 0 → Fin S4096x512.rank)) (hr : S4096x512.ReducesTo [1] S4096) (h0 : 0 < S_.numel)
    (x y : FVec Ideal S4096x512 .f32) : FVec Ideal S4096 .f32 :=
  Host.sqrt (F := Ideal) (Host.reduceAdd (F := Ideal)
    (mulf (addf (subf x y) (broadcastInDim S4096x512 ![] hbc (constant (F := Ideal) S_ .f32 0x358637BD#32)))
      (addf (subf x y) (broadcastInDim S4096x512 ![] hbc (constant (F := Ideal) S_ .f32 0x358637BD#32))))
    (constant (F := Ideal) S_ .f32 0x00000000#32) hr h0)

/-- Everything after the per-row quantities: the hinge on positives minus negative plus margin, plus the larger
    positive, averaged over the rows. One chain of host operations, the same in both programs. -/
def tail (hb : S_.BroadcastsInDim S4096 (![] : Fin 0 → Fin S4096.rank)) (hr : S4096.ReducesTo [0] S_) (h0 : 0 < S_.numel)
    (nv l1 l2 d12 : FVec Ideal S4096 .f32) : FVec Ideal S_ .f32 :=
  Host.divf (F := Ideal)
    (Host.reduceAdd (F := Ideal)
      (addf (maximumf (addf (subf (addf (addf l1 l2) d12) nv) (broadcastInDim S4096 ![] hb (constant (F := Ideal) S_ .f32 0x3DCCCCCD#32)))
          (broadcastInDim S4096 ![] hb (constant (F := Ideal) S_ .f32 0x00000000#32))) (maximumf l1 l2))
      (constant (F := Ideal) S_ .f32 0x00000000#32) hr h0)
    (constant (F := Ideal) S_ .f32 0x45800000#32)

end DRC

end
-- ==== Proof.KI.Inputs.lean ====
/-
  The three inputs of the idealized kernel's program on a core, as matrices of extended reals.
-/
import proofs.«170701_j91010357002637_1_alg».proof.Proof.KI.Kit
import proofs.«170701_j91010357002637_1_alg».proof.Proof.Spec

noncomputable section

namespace Cert.KernelIdeal.HandValue

open Cert.KernelIdeal Cert.KernelIdeal.Gen Cert.KernelIdeal.Hand Idealize.ShloMosaic Idealize.ShloMosaic.TcCoe Idealize.SL.Sem

variable (m : (ℓ : Loc nD τ sig) → Buf (Elt Ideal) ℓ)

/-- The three inputs on core c. -/
abbrev inA (c : Dev nD) : DRC.Mat := m ((c : Thread nD τ).loc main_arg0)
abbrev inB (c : Dev nD) : DRC.Mat := m ((c : Thread nD τ).loc main_arg1)
abbrev inC (c : Dev nD) : DRC.Mat := m ((c : Thread nD τ).loc main_arg2)

end Cert.KernelIdeal.HandValue

end
-- ==== Proof.KI.Tail.lean ====
/-
  The idealized kernel's result: the shared chain applied to the four per-row quantities.

  After the region the host reshapes the [4096, 1] output array to a vector, computes the two positive distances from
  the differences a - b and a - c, the distance of b and c with the epsilon, and then the chain shared with the
  reference.  None of these lines writes an input or the output array, so they read the inputs as launched and the
  array as the region left it.
-/
import proofs.«170701_j91010357002637_1_alg».proof.Proof.KI.Frame
import proofs.«170701_j91010357002637_1_alg».proof.Proof.KI.Inputs
import proofs.«170701_j91010357002637_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The region's output array after the run, as a vector over the rows. -/
def negK (c : Dev nD) : FVec Ideal S4096 .f32 := fun i =>
  ((dats (F := Ideal) m 0 c).arrAt 4 cfg0.N : S4096x1.Idx → EReal) (ix2 (⟨(i 0).val, (i 0).isLt⟩ : Fin 4096) (0 : Fin 1))

/-- The lines after the region from any contents: the shared chain over the reshaped output array and the three
    distances of the inputs. -/
private theorem tail_term (W : Valuation τ sig (Elt Ideal)) :
    (StableHlo.after (tailOps (F := Ideal)).flatten W (Proc.devRef .tc main_v35) : S_.Idx → EReal)
      = DRC.tail bcast_S_S4096 reducesTo_S4096_S_d0 h_S_
          (shapeCast S4096 (W (Proc.devRef .tc main_v10) : S4096x1.Idx → EReal) shapeCasts_S4096x1_S4096)
          (DRC.pairDist reducesTo_S4096x512_S4096_d1 h_S_ (W (Proc.devRef .tc main_arg0)) (W (Proc.devRef .tc main_arg1)))
          (DRC.pairDist reducesTo_S4096x512_S4096_d1 h_S_ (W (Proc.devRef .tc main_arg0)) (W (Proc.devRef .tc main_arg2)))
          (DRC.pairDistEps bcast_S_S4096x512 reducesTo_S4096x512_S4096_d1 h_S_ (W (Proc.devRef .tc main_arg1)) (W (Proc.devRef .tc main_arg2))) := by
  simp only [tailOps, hostOps1, hostOps1_1, hostOps1_2, List.flatten_cons, List.flatten_nil, List.append_nil, List.cons_append,
    List.nil_append]
  after_results_simp
  simp only [StableHlo.TRef.ofBuf, StableHlo.TRef.toBuf, cast_eq]
  rfl

/-- Reshaping a [4096, 1] array to a vector reads row i's single entry at i: both have row-major position i. -/
private theorem reshape_col (x : S4096x1.Idx → EReal) :
    shapeCast S4096 x shapeCasts_S4096x1_S4096
      = fun i => x (ix2 (⟨(i 0).val, (i 0).isLt⟩ : Fin 4096) (0 : Fin 1)) := by
  funext i
  refine shapeCast_apply x shapeCasts_S4096x1_S4096 i _ ?_
  rw [Shape.rowMajor_val_two, Shape.rowMajor_val_one]
  show (i 0).val * 1 + 0 = (i 0).val
  omega

/-- The result buffer after the lines that follow the region. -/
theorem result_eq (c : Dev nD) :
    (Pipeline.afterTail₀ cfgs (dats (F := Ideal) m) 0 (V0 m) tailOps c main_v35 : S_.Idx → EReal)
      = DRC.tail bcast_S_S4096 reducesTo_S4096_S_d0 h_S_ (negK m c)
          (DRC.pairDist reducesTo_S4096x512_S4096_d1 h_S_ (inA m c) (inB m c))
          (DRC.pairDist reducesTo_S4096x512_S4096_d1 h_S_ (inA m c) (inC m c))
          (DRC.pairDistEps bcast_S_S4096x512 reducesTo_S4096x512_S4096_d1 h_S_ (inB m c) (inC m c)) := by
  unfold Pipeline.afterTail₀
  refine (tail_term _).trans ?_
  -- the output array is read as the region left it, the inputs as launched
  have e10 : (Pipeline.withArrays (cfgs 0).spec c (V0 m c) (fun w => (dats (F := Ideal) m 0 c).arrAt w (cfgs 0).N)
      (Proc.devRef .tc main_v10) : S4096x1.Idx → EReal) = ((dats (F := Ideal) m 0 c).arrAt 4 cfg0.N : S4096x1.Idx → EReal) :=
    Pipeline.withArrays_arr spec0 launch0.win.arr_inj c _ _ 4
  have e0 : (Pipeline.withArrays (cfgs 0).spec c (V0 m c) (fun w => (dats (F := Ideal) m 0 c).arrAt w (cfgs 0).N)
      (Proc.devRef .tc main_arg0) : S4096x512.Idx → EReal) = inA m c :=
    (Pipeline.withArrays_of_ne _ c _ _ main_arg0 (by decide)).trans (V_main_arg0 m c)
  have e1 : (Pipeline.withArrays (cfgs 0).spec c (V0 m c) (fun w => (dats (F := Ideal) m 0 c).arrAt w (cfgs 0).N)
      (Proc.devRef .tc main_arg1) : S4096x512.Idx → EReal) = inB m c :=
    (Pipeline.withArrays_of_ne _ c _ _ main_arg1 (by decide)).trans (V_main_arg1 m c)
  have e2 : (Pipeline.withArrays (cfgs 0).spec c (V0 m c) (fun w => (dats (F := Ideal) m 0 c).arrAt w (cfgs 0).N)
      (Proc.devRef .tc main_arg2) : S4096x512.Idx → EReal) = inC m c :=
    (Pipeline.withArrays_of_ne _ c _ _ main_arg2 (by decide)).trans (V_main_arg2 m c)
  rw [e10, e0, e1, e2, reshape_col]
  rfl

end Cert.KernelIdeal.HandValue

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.KI.Prefix.lean ====
/-
  What the region finds in its four input arrays, read at an index, over the extended reals.

  The host prefix joins the three inputs along the rows, copies a and the stack to bf16 (the identity on extended
  reals), and sums the squares of a's rows into a column and of the stack's rows into a row.  So the first window's
  array is a itself, the second's the stack, the third's the column of |a_p|^2 and the fourth's the row of |R_q|^2.
-/
import proofs.«170701_j91010357002637_1_alg».proof.Proof.KI.Kit
import proofs.«170701_j91010357002637_1_alg».proof.Proof.KI.Inputs
import proofs.«170701_j91010357002637_1_alg».proof.Proof.Spec
import proofs.«170701_j91010357002637_1_alg».proof.Proof.LibKeepdims
import proofs.«170701_j91010357002637_1_alg».proof.Proof.LibRowLayout
import proofs.«170701_j91010357002637_1_alg».proof.Proof.LibRowSum
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HandValue

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ)

/-! ## The operations of the host prefix, read at an index -/

/-- The stack of three matrices along the rows, read at (q, k): the matrix q's third of the rows names, at the row
    q counts inside that third. -/
private theorem stack_apply (a b c : DRC.Mat)
    (h : Shape.Concatenates [S4096x512, S4096x512, S4096x512] S12288x512 0) (q : Fin 12288) (k : Fin 512) :
    concatenate S12288x512 0 [⟨S4096x512, a⟩, ⟨S4096x512, b⟩, ⟨S4096x512, c⟩] h (ix2 q k) = DRC.rows3 a b c q k := by
  have hq := q.isLt
  unfold DRC.rows3
  by_cases h1 : q.val < 4096
  · rw [dif_pos h1]
    exact concatenate_apply_piece (0 : Fin S12288x512.rank) [⟨S4096x512, a⟩, ⟨S4096x512, b⟩, ⟨S4096x512, c⟩] h (ix2 q k) 0 (by show 0 < 3; omega) S4096x512 a rfl rfl 0 rfl
      (ix2 (⟨q.val, h1⟩ : Fin 4096) k)
      (fun d hd => match d, hd with
        | ⟨0, _⟩, hd => absurd rfl hd
        | ⟨1, _⟩, _ => rfl)
      (Nat.zero_add _)
  · rw [dif_neg h1]
    by_cases h2 : q.val < 8192
    · rw [dif_pos h2]
      exact concatenate_apply_piece (0 : Fin S12288x512.rank) [⟨S4096x512, a⟩, ⟨S4096x512, b⟩, ⟨S4096x512, c⟩] h (ix2 q k) 1 (by show 1 < 3; omega) S4096x512 b rfl rfl 4096 rfl
        (ix2 (⟨q.val - 4096, by omega⟩ : Fin 4096) k)
        (fun d hd => match d, hd with
          | ⟨0, _⟩, hd => absurd rfl hd
          | ⟨1, _⟩, _ => rfl)
        (by show 4096 + (q.val - 4096) = q.val; omega)
    · rw [dif_neg h2]
      exact concatenate_apply_piece (0 : Fin S12288x512.rank) [⟨S4096x512, a⟩, ⟨S4096x512, b⟩, ⟨S4096x512, c⟩] h (ix2 q k) 2 (by show 2 < 3; omega) S4096x512 c rfl rfl 8192 rfl
        (ix2 (⟨q.val - 8192, by omega⟩ : Fin 4096) k)
        (fun d hd => match d, hd with
          | ⟨0, _⟩, hd => absurd rfl hd
          | ⟨1, _⟩, _ => rfl)
        (by show 8192 + (q.val - 8192) = q.val; omega)

/-- The host's sum of the squares of an [n, 512] array's rows from the zero word, at row p: zero plus the sum of the
    row's squares. -/
private theorem rowSumSq_apply {n : Nat} (x : FVec Ideal ⟨2, ![n, 512]⟩ .f32)
    (hr : (⟨2, ![n, 512]⟩ : Shape).ReducesTo [1] ⟨1, ![n]⟩) (hR : (⟨2, ![n, 512]⟩ : Shape).Reduces [1] ⟨1, ![n]⟩)
    (h0 : 0 < (⟨0, ![]⟩ : Shape).numel) (p : Fin n) :
    Host.reduceAdd (F := Ideal) (mulf x x) (constant (F := Ideal) ⟨0, ![]⟩ .f32 0x00000000#32) hr h0 (ix1 p)
      = 0 + ∑ k : Fin 512, x (ix2 p k) * x (ix2 p k) := by
  simp only [Host.reduceAdd, Ideal.hostReduceAdd_def]
  rw [Ideal.hostReduceAdd_single hr hR]
  refine congrArg₂ (· + ·) Ideal.ofBits_zero_f32 (Finset.sum_congr rfl fun k _ => ?_)
  rw [RowSum.lift_ix2 hR p k]; rfl

/-- An [n] array laid out as an [n, 1] column reads, at (p, u), the array at p. -/
private theorem column_apply {α : Type} {n : Nat} (x : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h x (ix2 p u) = x (ix1 p) :=
  broadcastInDim_apply _ h x (ix2 p u) (ix1 p) fun a => match a with
    | ⟨0, _⟩ => by
      show p.val = if n = 1 then 0 else p.val
      split
      · have := p.isLt; omega
      · rfl

/-! ## The four arrays -/

/-- The first window's array (a's bf16 copy) is a. -/
theorem V_v1_apply (c : Dev nD) (p : Fin 4096) (k : Fin 512) :
    (V m c main_v1 : S4096x512.Idx → EReal) (ix2 p k) = inA m c (ix2 p k) := by
  have e : (V m c main_v1 : S4096x512.Idx → EReal)
      = (truncf (F := Ideal) .bf16 (inA m c) bitsLt_bf16_f32 : S4096x512.Idx → EReal) := by
    dsimp only [V, V0]
    simp only [hostOps0, List.flatten_cons, List.flatten_nil, List.append_nil, List.cons_append, List.nil_append]
    after_results
  rw [e]
  rfl

/-- The second window's array (the stack's bf16 copy) is the stack. -/
theorem V_v2_apply (c : Dev nD) (q : Fin 12288) (k : Fin 512) :
    (V m c main_v2 : S12288x512.Idx → EReal) (ix2 q k) = DRC.rows3 (inA m c) (inB m c) (inC m c) q k := by
  have e : (V m c main_v2 : S12288x512.Idx → EReal)
      = (truncf (F := Ideal) .bf16 (concatenate S12288x512 0 [⟨S4096x512, inA m c⟩, ⟨S4096x512, inB m c⟩, ⟨S4096x512, inC m c⟩]
          concatenates_S4096x512_S4096x512_S4096x512_S12288x512_d0 : FVec Ideal S12288x512 .f32) bitsLt_bf16_f32 : S12288x512.Idx → EReal) := by
    dsimp only [V, V0]
    simp only [hostOps0, List.flatten_cons, List.flatten_nil, List.append_nil, List.cons_append, List.nil_append]
    after_results
    rfl
  rw [e]
  exact stack_apply (inA m c) (inB m c) (inC m c) concatenates_S4096x512_S4096x512_S4096x512_S12288x512_d0 q k

/-- The third window's array is the column of a's rows' sums of squares. -/
theorem V_v5_apply (c : Dev nD) (p : Fin 4096) :
    (V m c main_v5 : S4096x1.Idx → EReal) (ix2 p (0 : Fin 1)) = DRC.nrmA (inA m c) p := by
  have e : (V m c main_v5 : S4096x1.Idx → EReal) = broadcastInDim S4096x1 ![0] bcast_S4096_S4096x1_0
      (Host.reduceAdd (F := Ideal) (mulf (inA m c) (inA m c)) (constant (F := Ideal) S_ .f32 0x00000000#32) reducesTo_S4096x512_S4096_d1 h_S_) := by
    dsimp only [V, V0]
    simp only [hostOps0, List.flatten_cons, List.flatten_nil, List.append_nil, List.cons_append, List.nil_append]
    after_results
  rw [e, column_apply]
  exact rowSumSq_apply (inA m c) reducesTo_S4096x512_S4096_d1 (by decide) h_S_ p

/-- The fourth window's array is the row of the stack's rows' sums of squares. -/
theorem V_v9_apply (c : Dev nD) (q : Fin 12288) :
    (V m c main_v9 : S1x12288.Idx → EReal) (ix2 (0 : Fin 1) q) = DRC.nrmR (inA m c) (inB m c) (inC m c) q := by
  have e : (V m c main_v9 : S1x12288.Idx → EReal) = transpose S1x12288 [1, 0] (broadcastInDim S12288x1 ![0] bcast_S12288_S12288x1_0
      (Host.reduceAdd (F := Ideal)
        (mulf (concatenate S12288x512 0 [⟨S4096x512, inA m c⟩, ⟨S4096x512, inB m c⟩, ⟨S4096x512, inC m c⟩] concatenates_S4096x512_S4096x512_S4096x512_S12288x512_d0 : FVec Ideal S12288x512 .f32)
          (concatenate S12288x512 0 [⟨S4096x512, inA m c⟩, ⟨S4096x512, inB m c⟩, ⟨S4096x512, inC m c⟩] concatenates_S4096x512_S4096x512_S4096x512_S12288x512_d0 : FVec Ideal S12288x512 .f32))
        (constant (F := Ideal) S_ .f32 0x00000000#32) reducesTo_S12288x512_S12288_d1 h_S_)) transposes_S12288x1_S1x12288_1_0 := by
    dsimp only [V, V0]
    simp only [hostOps0, List.flatten_cons, List.flatten_nil, List.append_nil, List.cons_append, List.nil_append]
    after_results
    rfl
  rw [e, RowLayout.transpose_a1_1a_apply, column_apply]
  refine (rowSumSq_apply _ reducesTo_S12288x512_S12288_d1 (by decide) h_S_ q).trans ?_
  unfold DRC.nrmR
  simp only [stack_apply]

end Cert.KernelIdeal.HandValue

end
-- ==== Proof.LibRowMin.lean ====
/-
  A minimum along the rows of a two-dimensional array, read at a row.

  Reducing an [m, n] array over its second axis with the minimum leaves an [m] array; at row p it is the minimum
  of the starting value and of the row's n entries, in whatever order they are combined.  The same reading holds
  for a kernel's vector reduction and for a host reduction with a minimum body.  Stated for any extents.
-/
import Idealize.ShloMosaic.Lib.ValueIdx
import Idealize.ShloMosaic.PureOps.Ideal.Laws

noncomputable section

namespace RowMin

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A kernel's minimum over the second axis, at row p: the minimum of the starting word's value and the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.minimumf.neutral φ hφ) (p : Fin m) :
    multiReduction .minimumf [1] (⟨1, ![m]⟩ : Shape) src acc h hφ hacc (ix1 p)
      = (Finset.univ : Finset (Fin n)).fold min (Ideal.ofBits φ acc) (fun k => src (ix2 p k)) := by
  rw [multiReduction_minimumf_eq_fold]
  refine (h.fold_filter_drop_single _ _ src (ix1 p)).trans ?_
  show (Finset.univ : Finset (Fin n)).fold min (Ideal.ofBits φ acc) (src ∘ h.lift (ix1 p)) = _
  exact Finset.fold_congr fun k _ => congrArg src (lift_ix2 h p k)

/-- A host reduction with a minimum body over the second axis, at row p: the same minimum, from the initial value. -/
theorem hostReduce_apply {φ : FTy} {u : Shape} (x : (⟨2, ![m, n]⟩ : Shape).Idx → Ideal φ) (init : u.Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < u.numel) (p : Fin m) :
    Host.reduce (FloatOps.minimumf (F := Ideal) (φ := φ)) x init h' hu (ix1 p)
      = (Finset.univ : Finset (Fin n)).fold min (init (Shape.Idx.first hu)) (fun k => x (ix2 p k)) := by
  rw [Host.reduce_eq_fold_single (FloatOps.minimumf (F := Ideal) (φ := φ)) x init h' h hu (ix1 p)]
  show (Finset.univ : Finset (Fin n)).fold min (init (Shape.Idx.first hu)) (x ∘ h.lift (ix1 p)) = _
  exact Finset.fold_congr fun k _ => congrArg x (lift_ix2 h p k)

end RowMin

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.KI.Payload.lean ====
/-
  One grid point's update of the running minimum, read at a row, over the extended reals.

  At grid point (i, j) the body's new column has at row r the minimum of the old column's entry and of the tile's row:
  over the tile's 512 columns l, +inf where global column 512 j + l is one of the three self columns of global row
  1024 i + r, and otherwise the square root of the clamped Gram expansion  max ((n r + n' l) - 2 <x_r, y_l>, 0)  of the
  two staged blocks' rows, n and n' the staged sums of squares.  The reset value is +inf in every row.
-/
import proofs.«170701_j91010357002637_1_alg».proof.Proof.Gen.KernelIdeal.Skeleton
import proofs.«170701_j91010357002637_1_alg».proof.Proof.LibRowMin
import proofs.«170701_j91010357002637_1_alg».proof.Proof.LibDotForms
import proofs.«170701_j91010357002637_1_alg».proof.Proof.LibKeepdims
import proofs.«170701_j91010357002637_1_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-- Within the tile at grid point i, column l of row r is one of the row's three self columns (as natural numbers). -/
def tileSame (i : grid0.Coords) (r : Fin 1024) (l : Fin 512) : Prop :=
  (i 1).val * 512 + l.val = (i 0).val * 1024 + r.val ∨ (i 1).val * 512 + l.val = (i 0).val * 1024 + r.val + 4096
    ∨ (i 1).val * 512 + l.val = (i 0).val * 1024 + r.val + 8192
instance (i : grid0.Coords) (r : Fin 1024) (l : Fin 512) : Decidable (tileSame i r l) := by unfold tileSame; infer_instance

/-! ### The literal words -/

/-- The word 0x7F800000 is +inf. -/
private theorem lit_inf : Ideal.ofBits .f32 0x7F800000#32 = (⊤ : EReal) := by
  simp [Ideal.ofBits, Ideal.ieee]

/-- The word 0x40000000 is 2. -/
private theorem lit_two : Ideal.ofBits .f32 0x40000000#32 = (2 : EReal) := by
  simp [Ideal.ofBits, Ideal.ieee, -EReal.coe_mul]; norm_num; rfl

/-! ### The mask at an entry -/

/-- On one bit, an or is 1 exactly when one of the operands is. -/
private theorem bit_or_eq_one (a b : BitVec 1) : a ||| b = 1#1 ↔ a = 1#1 ∨ b = 1#1 := by
  revert a b; decide

/-- An equality comparison of words is 1 exactly when the words are the same number. -/
private theorem cmpi_eq_one (a b : BitVec 32) : IntOp.cmpi .eq a b = 1#1 ↔ a.toNat = b.toNat := by
  rw [BitVec.toNat_inj]
  unfold IntOp.cmpi
  cases h : (a == b) <;> simp_all

/-- The row counter at (r, l) is the word of r. -/
private theorem iota_row (r : Fin 1024) (l : Fin 512) :
    iota .tc S1024x512 32 [0] iota_S1024x512_d0_w32 (ix2 r l) = BitVec.ofNat 32 r.val :=
  iota_single_apply .tc S1024x512 32 0 _ (ix2 r l)

/-- The column counter at (r, l) is the word of l. -/
private theorem iota_col (r : Fin 1024) (l : Fin 512) :
    iota .tc S1024x512 32 [1] iota_S1024x512_d1_w32 (ix2 r l) = BitVec.ofNat 32 l.val :=
  iota_single_apply .tc S1024x512 32 1 _ (ix2 r l)

/-- The mask's bit at (r, l) is 1 exactly at the three self columns of the row. -/
private theorem mask_apply (i : grid0.Coords) (r : Fin 1024) (l : Fin 512) :
    k0_pay4 i (ix2 r l) = 1#1 ↔ tileSame i r l := by
  have h0 : (i 0).val < 4 := (i 0).isLt
  have h1 : (i 1).val < 24 := (i 1).isLt
  have hr := r.isLt
  have hl := l.isLt
  unfold k0_pay4 tileSame
  simp only [ori, cmpi, addi, broadcast_apply, Scalar.muli, IntOp.ori, IntOp.addi, IntOp.muli]
  rw [iota_row, iota_col]
  rw [bit_or_eq_one, bit_or_eq_one, cmpi_eq_one, cmpi_eq_one, cmpi_eq_one, or_assoc]
  simp only [BitVec.toNat_add, BitVec.toNat_mul, BitVec.toNat_ofNat]
  omega

/-- The reset column is +inf in every row. -/
theorem top_apply (r : Fin 1024) : k0_pay2 (F := Ideal) (ix2 r (0 : Fin 1)) = (⊤ : EReal) := by
  unfold k0_pay2
  rw [shapeCast_self]
  exact lit_inf

/-! ### The distance tile at an entry -/

/-- The contraction record is a product of the left block with the transposed right block. -/
private theorem dot_isABt : DotForms.IsABt dot_S1024x512_S512x512_S1024x512_1_1_0_0_n_n :=
  ⟨rfl, rfl, rfl, rfl, rfl, rfl⟩

/-- The distance tile at (r, l): the root of the clamped Gram expansion of row r of the left block and row l of the right one. -/
private theorem dist_apply (x0 : Vec Ideal S1024x512 .bf16) (x1 : Vec Ideal S512x512 .bf16) (x2 : Vec Ideal S1024x1 .f32)
    (x3 : Vec Ideal S1x512 .f32) (r : Fin 1024) (l : Fin 512) :
    k0_pay3 x0 x1 x2 x3 (ix2 r l)
      = Ideal.sqrt (max ((x2 (ix2 r (0 : Fin 1)) + x3 (ix2 (0 : Fin 1) l)) - 2 * ∑ k : Fin 512, x0 (ix2 r k) * x1 (ix2 l k)) 0) := by
  unfold k0_pay3
  simp only [shapeCast_self]
  have e : ∀ v : FVec Ideal S1024x512 .f32, Idealize.ShloMosaic.sqrt v (ix2 r l) = Ideal.sqrt (v (ix2 r l)) := fun _ => rfl
  rw [e, maximumf_apply, subf_apply, addf_apply, mulf_apply, broadcast_apply, broadcast_apply,
    KeepdimsLayout.broadcastTo_a1_ab_apply, RowLayout.broadcastTo_1b_ab_apply, DotForms.abt_matmul_zero_apply dot_isABt]
  show Ideal.sqrt (max (_ - Ideal.ofBits .f32 0x40000000#32 * _) (Ideal.ofBits .f32 0x00000000#32)) = _
  rw [lit_two, Ideal.ofBits_zero_f32]

/-- The new column at row r. -/
theorem step_apply (i : grid0.Coords) (x0 : Vec Ideal S1024x512 .bf16) (x1 : Vec Ideal S512x512 .bf16) (x2 : Vec Ideal S1024x1 .f32)
    (x3 : Vec Ideal S1x512 .f32) (prev : Vec Ideal S1024x1 .f32) (r : Fin 1024) :
    k0_pay1 (k0_pay3 x0 x1 x2 x3) (k0_pay4 i) (k0_pay5 (F := Ideal)) prev (ix2 r (0 : Fin 1))
      = min (prev (ix2 r (0 : Fin 1)))
          ((Finset.univ : Finset (Fin 512)).fold min (⊤ : EReal) (fun l =>
            if tileSame i r l then (⊤ : EReal)
            else Ideal.sqrt (max ((x2 (ix2 r (0 : Fin 1)) + x3 (ix2 (0 : Fin 1) l)) - 2 * ∑ k : Fin 512, x0 (ix2 r k) * x1 (ix2 l k)) 0))) := by
  unfold k0_pay1
  rw [shapeCast_self, minimumf_apply, KeepdimsLayout.shapeCast_a_a1_apply]
  refine congrArg (min (prev (ix2 r (0 : Fin 1)))) ?_
  refine (RowMin.multiReduction_apply (m := 1024) (n := 512) _ _ _ _ _ r).trans ?_
  rw [lit_inf]
  refine Finset.fold_congr fun l _ => ?_
  rw [select_apply, dist_apply]
  by_cases h : tileSame i r l
  · rw [if_pos h, (mask_apply i r l).2 h, select_one]
    exact lit_inf
  · rw [if_neg h, eq_zero_of_ne_one (mt (mask_apply i r l).1 h), select_zero]

end Cert.KernelIdeal.HandValue

end
-- ==== Proof.LibMinFold.lean ====
/-
  Running minima over an initial segment of a finite index range.

  For a family g over Fin N and a starting value b, the minimum of b and of g over the indices below n is
  characterised by its lower bounds: z is below it exactly when z is below b and below every g c with c < n.
  From that: the segment below 0 gives b, a segment reaching N gives the minimum over the whole range, and a
  segment is extended by a block of B further indices by taking the minimum with that block's own minimum
  (started from the same b: taking b in twice changes nothing).  Stated for any linear order.
-/
import Mathlib.Data.Finset.Fold
import Mathlib.Data.Fintype.Basic
import Mathlib.Order.Lattice

namespace MinFold

variable {α : Type*} [LinearOrder α]

/-- The minimum of `b` and of `g c` over the indices `c` below `n`. -/
def minBelow {N : ℕ} (b : α) (g : Fin N → α) (n : ℕ) : α :=
  (Finset.univ.filter fun c : Fin N => c.val < n).fold min b g

/-- Lower bounds of a minimum over the whole range. -/
theorem le_fold_min_univ {N : ℕ} (b : α) (g : Fin N → α) (z : α) :
    z ≤ (Finset.univ : Finset (Fin N)).fold min b g ↔ z ≤ b ∧ ∀ c : Fin N, z ≤ g c := by
  rw [Finset.le_fold_min]
  exact ⟨fun h => ⟨h.1, fun c => h.2 c (Finset.mem_univ c)⟩, fun h => ⟨h.1, fun c _ => h.2 c⟩⟩

/-- Lower bounds of a running minimum. -/
theorem le_minBelow_iff {N : ℕ} (b : α) (g : Fin N → α) (n : ℕ) (z : α) :
    z ≤ minBelow b g n ↔ z ≤ b ∧ ∀ c : Fin N, c.val < n → z ≤ g c := by
  unfold minBelow
  rw [Finset.le_fold_min]
  refine ⟨fun h => ⟨h.1, fun c hc => h.2 c (Finset.mem_filter.2 ⟨Finset.mem_univ c, hc⟩)⟩,
    fun h => ⟨h.1, fun c hc => h.2 c (Finset.mem_filter.1 hc).2⟩⟩

/-- Below index 0 there is nothing: the running minimum is the starting value. -/
theorem minBelow_zero {N : ℕ} (b : α) (g : Fin N → α) : minBelow b g 0 = b := by
  refine eq_of_forall_le_iff fun z => ?_
  rw [le_minBelow_iff]
  exact ⟨fun h => h.1, fun h => ⟨h, fun c hc => absurd hc (Nat.not_lt_zero _)⟩⟩

/-- A segment that reaches the end is the whole range. -/
theorem minBelow_all {N : ℕ} (b : α) (g : Fin N → α) (n : ℕ) (h : N ≤ n) :
    minBelow b g n = (Finset.univ : Finset (Fin N)).fold min b g := by
  refine eq_of_forall_le_iff fun z => ?_
  rw [le_minBelow_iff, le_fold_min_univ]
  exact ⟨fun hz => ⟨hz.1, fun c => hz.2 c (lt_of_lt_of_le c.isLt h)⟩, fun hz => ⟨hz.1, fun c _ => hz.2 c⟩⟩

/-- Extending a segment by a block of `B` indices: the minimum with the block's own minimum. -/
theorem minBelow_add {N B : ℕ} (b : α) (g : Fin N → α) (h : Fin B → α) (n : ℕ) (hn : n + B ≤ N)
    (e : ∀ q : Fin B, h q = g ⟨n + q.val, lt_of_lt_of_le (Nat.add_lt_add_left q.isLt n) hn⟩) :
    min (minBelow b g n) ((Finset.univ : Finset (Fin B)).fold min b h) = minBelow b g (n + B) := by
  refine eq_of_forall_le_iff fun z => ?_
  rw [le_min_iff, le_minBelow_iff, le_minBelow_iff, le_fold_min_univ]
  constructor
  · rintro ⟨⟨hb, h1⟩, -, h2⟩
    refine ⟨hb, fun c hc => ?_⟩
    by_cases hlt : c.val < n
    · exact h1 c hlt
    · have hq : c.val - n < B := by omega
      have := h2 ⟨c.val - n, hq⟩
      rw [e] at this
      have hc' : (⟨n + (c.val - n), lt_of_lt_of_le (Nat.add_lt_add_left hq n) hn⟩ : Fin N) = c :=
        Fin.ext (by show n + (c.val - n) = c.val; omega)
      rwa [hc'] at this
  · rintro ⟨hb, h1⟩
    refine ⟨⟨hb, fun c hc => h1 c (by omega)⟩, hb, fun q => ?_⟩
    rw [e]
    exact h1 _ (by show n + q.val < n + B; have := q.isLt; omega)

end MinFold
-- ==== Proof.KI.Acc.lean ====
/-
  The running minimum after each grid point, read at a row, over the extended reals.

  Grid point t is row tile t / 24 and column tile t % 24.  Row r of the running-minimum column after point t is the
  minimum, over the global columns below 512 (t % 24 + 1), of the masked distances of global row 1024 (t / 24) + r:
  it starts from +inf at the first column tile, and each point takes the minimum with its own 512 columns.
-/
import proofs.«170701_j91010357002637_1_alg».proof.Proof.KI.Frame
import proofs.«170701_j91010357002637_1_alg».proof.Proof.KI.Prefix
import proofs.«170701_j91010357002637_1_alg».proof.Proof.KI.Inputs
import proofs.«170701_j91010357002637_1_alg».proof.Proof.KI.Payload
import proofs.«170701_j91010357002637_1_alg».proof.Proof.Spec
import proofs.«170701_j91010357002637_1_alg».proof.Proof.LibMinFold
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Row P's distances with the three self columns at +inf. -/
def gRow (c : Dev nD) (P : Fin 4096) (q : Fin 12288) : EReal :=
  if DRC.same P q then (⊤ : EReal) else DRC.distK (DRC.sqd (inA m c) (inB m c) (inC m c) P q)

/-! ## The grid, decided once over its 96 points -/

/-- Point t is row tile t / 24 and column tile t % 24; the first and third windows' blocks follow the row tile, the
    second and fourth windows' the column tile. -/
private theorem grid_facts : ∀ t : Fin cfg0.N,
    ((grid0.coords t) 0).val = t.val / 24 ∧ ((grid0.coords t) 1).val = t.val % 24
    ∧ win0_0.index t (0 : Fin 2) = t.val / 24 ∧ win0_0.index t (1 : Fin 2) = 0
    ∧ win0_1.index t (0 : Fin 2) = t.val % 24 ∧ win0_1.index t (1 : Fin 2) = 0
    ∧ win0_2.index t (0 : Fin 2) = t.val / 24 ∧ win0_2.index t (1 : Fin 2) = 0
    ∧ win0_3.index t (0 : Fin 2) = 0 ∧ win0_3.index t (1 : Fin 2) = t.val % 24 :=
  (by decide +kernel : ∀ t : Fin grid0.N, _)

private theorem N96 : cfg0.N = 96 := N_0

/-! ## The four blocks of a point, by their literal types -/

/-- The block of a's rows. -/
abbrev xblk (c : Dev nD) (t : Fin cfg0.N) : Vec Ideal S1024x512 .bf16 := iblk m c 0 t
/-- The block of the stack's rows. -/
abbrev yblk (c : Dev nD) (t : Fin cfg0.N) : Vec Ideal S512x512 .bf16 := iblk m c 1 t
/-- The block of |a_p|^2. -/
abbrev nblk (c : Dev nD) (t : Fin cfg0.N) : Vec Ideal S1024x1 .f32 := iblk m c 2 t
/-- The block of |R_q|^2. -/
abbrev n'blk (c : Dev nD) (t : Fin cfg0.N) : Vec Ideal S1x512 .f32 := iblk m c 3 t

/-- Row r of the first window's block at point t is row 1024 (t / 24) + r of its array. -/
private theorem xblk_apply (c : Dev nD) (t : Fin cfg0.N) (r : Fin 1024) (k : Fin 512) (hP : 1024 * (t.val / 24) + r.val < 4096) :
    xblk m c t (ix2 r k) = (V m c main_v1 : S4096x512.Idx → EReal) (ix2 (⟨1024 * (t.val / 24) + r.val, hP⟩ : Fin 4096) k) := by
  obtain ⟨-, -, e0, e1, -⟩ := grid_facts t
  show (V m c main_v1 : S4096x512.Idx → EReal) (((cfg0.win 0).blk t).view.emb (ix2 r k)) = _
  refine congrArg (V m c main_v1 : S4096x512.Idx → EReal) ?_
  funext a; apply Fin.ext
  match a with
  | ⟨0, _⟩ => show win0_0.index t (0 : Fin 2) * 1024 + 1 * r.val = 1024 * (t.val / 24) + r.val; omega
  | ⟨1, _⟩ => show win0_0.index t (1 : Fin 2) * 512 + 1 * k.val = k.val; omega

/-- Row l of the second window's block at point t is row 512 (t % 24) + l of the stack. -/
private theorem yblk_apply (c : Dev nD) (t : Fin cfg0.N) (l : Fin 512) (k : Fin 512) (hQ : 512 * (t.val % 24) + l.val < 12288) :
    yblk m c t (ix2 l k) = (V m c main_v2 : S12288x512.Idx → EReal) (ix2 (⟨512 * (t.val % 24) + l.val, hQ⟩ : Fin 12288) k) := by
  obtain ⟨-, -, -, -, e0, e1, -⟩ := grid_facts t
  show (V m c main_v2 : S12288x512.Idx → EReal) (((cfg0.win 1).blk t).view.emb (ix2 l k)) = _
  refine congrArg (V m c main_v2 : S12288x512.Idx → EReal) ?_
  funext a; apply Fin.ext
  match a with
  | ⟨0, _⟩ => show win0_1.index t (0 : Fin 2) * 512 + 1 * l.val = 512 * (t.val % 24) + l.val; omega
  | ⟨1, _⟩ => show win0_1.index t (1 : Fin 2) * 512 + 1 * k.val = k.val; omega

/-- Row r of the third window's block. -/
private theorem nblk_apply (c : Dev nD) (t : Fin cfg0.N) (r : Fin 1024) (hP : 1024 * (t.val / 24) + r.val < 4096) :
    nblk m c t (ix2 r (0 : Fin 1)) = (V m c main_v5 : S4096x1.Idx → EReal) (ix2 (⟨1024 * (t.val / 24) + r.val, hP⟩ : Fin 4096) (0 : Fin 1)) := by
  obtain ⟨-, -, -, -, -, -, e0, e1, -⟩ := grid_facts t
  show (V m c main_v5 : S4096x1.Idx → EReal) (((cfg0.win 2).blk t).view.emb (ix2 r (0 : Fin 1))) = _
  refine congrArg (V m c main_v5 : S4096x1.Idx → EReal) ?_
  funext a; apply Fin.ext
  match a with
  | ⟨0, _⟩ => show win0_2.index t (0 : Fin 2) * 1024 + 1 * r.val = 1024 * (t.val / 24) + r.val; omega
  | ⟨1, _⟩ => show win0_2.index t (1 : Fin 2) * 1 + 1 * 0 = 0; omega

/-- Column l of the fourth window's block. -/
private theorem n'blk_apply (c : Dev nD) (t : Fin cfg0.N) (l : Fin 512) (hQ : 512 * (t.val % 24) + l.val < 12288) :
    n'blk m c t (ix2 (0 : Fin 1) l) = (V m c main_v9 : S1x12288.Idx → EReal) (ix2 (0 : Fin 1) (⟨512 * (t.val % 24) + l.val, hQ⟩ : Fin 12288)) := by
  obtain ⟨-, -, -, -, -, -, -, -, e0, e1⟩ := grid_facts t
  show (V m c main_v9 : S1x12288.Idx → EReal) (((cfg0.win 3).blk t).view.emb (ix2 (0 : Fin 1) l)) = _
  refine congrArg (V m c main_v9 : S1x12288.Idx → EReal) ?_
  funext a; apply Fin.ext
  match a with
  | ⟨0, _⟩ => show win0_3.index t (0 : Fin 2) * 1 + 1 * 0 = 0; omega
  | ⟨1, _⟩ => show win0_3.index t (1 : Fin 2) * 512 + 1 * l.val = 512 * (t.val % 24) + l.val; omega

/-! ## One point's update at a row, in the loss's vocabulary -/

/-- Within point t's tile, column l of row r is a self column exactly when global column 512 (t % 24) + l is one of
    global row 1024 (t / 24) + r. -/
private theorem tileSame_iff (t : Fin cfg0.N) (r : Fin 1024) (l : Fin 512) (hP : 1024 * (t.val / 24) + r.val < 4096)
    (hQ : 512 * (t.val % 24) + l.val < 12288) :
    tileSame (grid0.coords t) r l ↔ DRC.same (⟨1024 * (t.val / 24) + r.val, hP⟩ : Fin 4096) (⟨512 * (t.val % 24) + l.val, hQ⟩ : Fin 12288) := by
  obtain ⟨e0, e1, -⟩ := grid_facts t
  unfold tileSame DRC.same
  show (((grid0.coords t) 1).val * 512 + l.val = ((grid0.coords t) 0).val * 1024 + r.val
      ∨ ((grid0.coords t) 1).val * 512 + l.val = ((grid0.coords t) 0).val * 1024 + r.val + 4096
      ∨ ((grid0.coords t) 1).val * 512 + l.val = ((grid0.coords t) 0).val * 1024 + r.val + 8192)
    ↔ (512 * (t.val % 24) + l.val = 1024 * (t.val / 24) + r.val
      ∨ 512 * (t.val % 24) + l.val = 1024 * (t.val / 24) + r.val + 4096
      ∨ 512 * (t.val % 24) + l.val = 1024 * (t.val / 24) + r.val + 8192)
  rw [e0, e1]
  omega

/-- The tile's entry at (r, l) is the masked distance of global row 1024 (t / 24) + r at global column 512 (t % 24) + l. -/
private theorem tile_entry (c : Dev nD) (t : Fin cfg0.N) (r : Fin 1024) (l : Fin 512) (hP : 1024 * (t.val / 24) + r.val < 4096)
    (hQ : 512 * (t.val % 24) + l.val < 12288) :
    (if tileSame (grid0.coords t) r l then (⊤ : EReal)
      else Ideal.sqrt (max ((nblk m c t (ix2 r (0 : Fin 1)) + n'blk m c t (ix2 (0 : Fin 1) l))
        - 2 * ∑ k : Fin 512, xblk m c t (ix2 r k) * yblk m c t (ix2 l k)) 0))
      = gRow m c (⟨1024 * (t.val / 24) + r.val, hP⟩ : Fin 4096) (⟨512 * (t.val % 24) + l.val, hQ⟩ : Fin 12288) := by
  unfold gRow
  by_cases h : tileSame (grid0.coords t) r l
  · rw [if_pos h, if_pos ((tileSame_iff t r l hP hQ).mp h)]
  · rw [if_neg h, if_neg (mt (tileSame_iff t r l hP hQ).mpr h)]
    unfold DRC.distK DRC.sqd DRC.dotAR
    rw [nblk_apply m c t r hP, n'blk_apply m c t l hQ, V_v5_apply, V_v9_apply]
    refine congrArg (fun s => Ideal.sqrt (max ((DRC.nrmA (inA m c) _ + DRC.nrmR (inA m c) (inB m c) (inC m c) _) - 2 * s) 0)) ?_
    refine Finset.sum_congr rfl fun k _ => ?_
    rw [xblk_apply m c t r k hP, yblk_apply m c t l k hQ, V_v1_apply, V_v2_apply]

/-- One point's update at row r: the old entry and the minimum of the point's 512 masked distances. -/
private theorem step_row (c : Dev nD) (t : Fin cfg0.N) (r : Fin 1024) (prev : Vec Ideal S1024x1 .f32)
    (hP : 1024 * (t.val / 24) + r.val < 4096) (hQ : ∀ l : Fin 512, 512 * (t.val % 24) + l.val < 12288) :
    step (grid0.coords t) (xblk m c t) (yblk m c t) (nblk m c t) (n'blk m c t) prev (ix2 r (0 : Fin 1))
      = min (prev (ix2 r (0 : Fin 1)))
          ((Finset.univ : Finset (Fin 512)).fold min (⊤ : EReal) (fun l =>
            gRow m c (⟨1024 * (t.val / 24) + r.val, hP⟩ : Fin 4096) (⟨512 * (t.val % 24) + l.val, hQ l⟩ : Fin 12288))) := by
  refine (step_apply (grid0.coords t) (xblk m c t) (yblk m c t) (nblk m c t) (n'blk m c t) prev r).trans ?_
  refine congrArg (min (prev (ix2 r (0 : Fin 1)))) ?_
  exact Finset.fold_congr fun l _ => tile_entry m c t r l hP (hQ l)

/-! ## The invariant along a row tile -/

/-- After point n the running minimum at row r covers the global columns below 512 (n % 24 + 1): by induction on n,
    restarting from +inf at the first column tile and otherwise extending what the point before left by 512 columns. -/
private theorem accAt_row (c : Dev nD) (r : Fin 1024) : ∀ (n : ℕ) (hn : n < cfg0.N) (hP : 1024 * (n / 24) + r.val < 4096),
    (accAt (F := Ideal) m c n hn : S1024x1.Idx → EReal) (ix2 r (0 : Fin 1))
      = MinFold.minBelow (⊤ : EReal) (gRow m c (⟨1024 * (n / 24) + r.val, hP⟩ : Fin 4096)) (512 * (n % 24 + 1)) := by
  intro n
  induction n using Nat.strong_induction_on with
  | _ n ih =>
    intro hn hP
    have hN : n < 96 := lt_of_lt_of_eq hn N96
    have hQ : ∀ l : Fin 512, 512 * (n % 24) + l.val < 12288 := fun l => by have := l.isLt; omega
    have key := MinFold.minBelow_add (⊤ : EReal) (gRow m c (⟨1024 * (n / 24) + r.val, hP⟩ : Fin 4096))
      (fun l : Fin 512 => gRow m c (⟨1024 * (n / 24) + r.val, hP⟩ : Fin 4096) (⟨512 * (n % 24) + l.val, hQ l⟩ : Fin 12288))
      (512 * (n % 24)) (by omega) (fun q => rfl)
    have e5 : 512 * (n % 24) + 512 = 512 * (n % 24 + 1) := by omega
    rw [e5] at key
    by_cases h0 : n % 24 = 0
    · refine (congrFun (accAt_first m c ⟨n, hn⟩ h0) (ix2 r (0 : Fin 1))).trans ?_
      refine (step_row m c ⟨n, hn⟩ r (top (F := Ideal)) hP hQ).trans ?_
      refine Eq.trans ?_ key
      refine congrArg₂ min ?_ rfl
      have e0 : 512 * (n % 24) = 0 := by omega
      rw [e0, MinFold.minBelow_zero]
      exact top_apply r
    · refine (congrFun (accAt_later m c ⟨n, hn⟩ h0) (ix2 r (0 : Fin 1))).trans ?_
      refine (step_row m c ⟨n, hn⟩ r _ hP hQ).trans ?_
      refine Eq.trans ?_ key
      refine congrArg₂ min ?_ rfl
      have hP' : 1024 * ((n - 1) / 24) + r.val < 4096 := by omega
      refine (ih (n - 1) (by omega) _ hP').trans ?_
      have eP : (⟨1024 * ((n - 1) / 24) + r.val, hP'⟩ : Fin 4096) = ⟨1024 * (n / 24) + r.val, hP⟩ :=
        Fin.ext (by show 1024 * ((n - 1) / 24) + r.val = 1024 * (n / 24) + r.val; omega)
      have eN : 512 * ((n - 1) % 24 + 1) = 512 * (n % 24) := by omega
      rw [eP, eN]

/-- The running minimum after point t at row r. -/
theorem accAt_apply (c : Dev nD) (t : Fin cfg0.N) (r : Fin 1024) :
    (accAt (F := Ideal) m c t.val t.isLt : S1024x1.Idx → EReal) (ix2 r (0 : Fin 1))
      = MinFold.minBelow (⊤ : EReal) (gRow m c (⟨1024 * (t.val / 24) + r.val, by have := t.isLt; have hN : cfg0.N = 96 := N_0; have := r.isLt; omega⟩ : Fin 4096))
          (512 * (t.val % 24 + 1)) := by
  exact accAt_row m c r t.val t.isLt _

end Cert.KernelIdeal.HandValue

end
-- ==== Proof.KI.Blocks.lean ====
/-
  The region's output array after the run, read at a row, over the extended reals.

  The output block of row tile i is written back once, after the last column tile (point 24 i + 23), when the running
  minimum has seen all 12288 columns.  The four row tiles' blocks tile the [4096, 1] array, so row p of the array is
  row p's minimum of its masked distances over every column.
-/
import proofs.«170701_j91010357002637_1_alg».proof.Proof.KI.Acc

set_option maxRecDepth 16384

noncomputable section

open scoped BigOperators

namespace Cert.KernelIdeal.HandValue

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Window 4's block index at a grid point: the row tile on the rows, zero on the one column. -/
private theorem idx_facts4 : ∀ t : Fin cfg0.N, win0_4.index t (0 : Fin 2) = t.val / 24 ∧ win0_4.index t (1 : Fin 2) = 0 :=
  (by decide +kernel : ∀ t : Fin grid0.N, _)

/-- The whole output column: at row i, row i's minimum of its masked distances over every column. -/
private abbrev G4 (c : Dev nD) : S4096x1.Idx → EReal := fun i =>
  DRC.negval (fun p q => DRC.distK (DRC.sqd (inA m c) (inB m c) (inC m c) p q)) ⟨(i 0).val, (i 0).isLt⟩

/-- Row P's minimum over every column is the fold of its masked distances. -/
private theorem negval_eq_fold (c : Dev nD) (P : Fin 4096) :
    DRC.negval (fun p q => DRC.distK (DRC.sqd (inA m c) (inB m c) (inC m c) p q)) P
      = (Finset.univ : Finset (Fin 12288)).fold min (⊤ : EReal) (gRow m c P) := rfl

/-- After the last column tile of a row tile, row r of the running minimum is the row's minimum over all columns,
    which is the whole column read through the point's block. -/
private theorem flushed4_at (c : Dev nD) (t : Fin cfg0.N) (hf : t.val % 24 = 23) (r : Fin 1024) (u : Fin 1) :
    (accAt (F := Ideal) m c t.val t.isLt : S1024x1.Idx → EReal) (ix2 r u)
      = G4 m c (((cfg0.win 4).blk t).view.emb (ix2 r u)) := by
  obtain ⟨e0, e1⟩ := idx_facts4 t
  have hN : t.val < 96 := lt_of_lt_of_eq t.isLt (show cfg0.N = 96 from N_0)
  have hu : u = 0 := Subsingleton.elim _ _
  subst hu
  rw [accAt_apply m c t r, MinFold.minBelow_all _ _ _ (by omega)]
  show _ = DRC.negval (fun p q => DRC.distK (DRC.sqd (inA m c) (inB m c) (inC m c) p q))
    ⟨win0_4.index t (0 : Fin 2) * 1024 + 1 * r.val, _⟩
  rw [negval_eq_fold]
  refine congrArg (fun P => (Finset.univ : Finset (Fin 12288)).fold min (⊤ : EReal) (gRow m c P)) (Fin.ext ?_)
  show 1024 * (t.val / 24) + r.val = win0_4.index t (0 : Fin 2) * 1024 + 1 * r.val
  omega

/-- What a point after the last column tile writes back is its block of the whole column. -/
private theorem flushed4_eq (c : Dev nD) (t : Fin cfg0.N) (hf : t.val % 24 = 23) :
    (dats (F := Ideal) m 0 c).flushed 4 t = ((cfg0.win 4).blk t).view.read (Elt Ideal) (G4 m c) := by
  show (cfg0.win 4).cut (grid0.coords t) ((dats m 0 c).after 4 t) = _
  rw [after0_4]
  funext y
  obtain ⟨r, u, rfl⟩ : ∃ (r : Fin 1024) (u : Fin 1), y = ix2 r u := ⟨y 0, y 1, eq_ix2 y⟩
  exact flushed4_at m c t hf r u

/-- A row of the array is in a point's block exactly when each coordinate is in the block's range on its axis. -/
private theorem mem_blk4 (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v10).slice (win0_4.rect t)).set ↔ _
  rw [View.set_slice_whole, Rect.mem_set_unit]
  exact Iff.rfl

/-- Every row is in the block written back after the last column tile of its row tile. -/
private theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 96 := N_0
  obtain ⟨t, ht⟩ : ∃ t : Fin cfg0.N, t.val = 24 * ((i 0).val / 1024) + 23 := ⟨⟨_, by omega⟩, rfl⟩
  obtain ⟨e0, e1⟩ := idx_facts4 t
  refine ⟨t, (flush0_4 t).mpr (by omega), ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-- The output array at row p: the minimum over all columns of row p's masked distances. -/
theorem arr_out (c : Dev nD) (p : Fin 4096) :
    ((dats (F := Ideal) m 0 c).arrAt 4 cfg0.N : S4096x1.Idx → EReal) (ix2 p (0 : Fin 1))
      = DRC.negval (fun p q => DRC.distK (DRC.sqd (inA m c) (inB m c) (inC m c) p q)) p := by
  have h := (dats (F := Ideal) m 0 c).arrAt_eq_of_cover 4 (G4 m c)
    (fun t hf => flushed4_eq m c t ((flush0_4 t).mp hf)) cover4
  exact congrFun h (ix2 p (0 : Fin 1))

end Cert.KernelIdeal.HandValue

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.RefSide.lean ====
/-
  The reference program's per-row quantities, read at an index.

  The reference forms the full 4096 x 12288 matrix of distances from the Gram expansion (sums of squares laid out as
  a column and a row, the product of a with the transposed stack), guards the square root against zero, clamps at
  zero, reads the two positive distances of row p off that matrix at the columns p+4096 and p+8192 through a gather,
  and takes row p's minimum with the three self columns replaced by +inf.  Each is stated here at an index in the
  vocabulary of the specification; the last operations are the shared chain, left closed.
-/
import proofs.«170701_j91010357002637_1_alg».proof.Proof.RefRead
import proofs.«170701_j91010357002637_1_alg».proof.Proof.Spec
import proofs.«170701_j91010357002637_1_alg».proof.Proof.LibRowMin
import proofs.«170701_j91010357002637_1_alg».proof.Proof.LibDotForms
import proofs.«170701_j91010357002637_1_alg».proof.Proof.LibGatherScatter
import proofs.«170701_j91010357002637_1_alg».proof.Proof.LibKeepdims
import proofs.«170701_j91010357002637_1_alg».proof.Proof.LibRowLayout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefSide

open Cert.ReferenceIdeal Cert.ReferenceIdeal.Gen Cert.ReferenceIdeal.ReadP Idealize.ShloMosaic Idealize.ShloMosaic.ValueIdx

variable (a b c : (⟨S4096x512, .f32⟩ : BufTy).Contents (Elt Ideal))

/-! ## The stack of the three inputs and the Gram expansion -/

/-- The stack read at row q, column k: a's rows first, then b's, then c's. -/
private theorem stack_apply (q : Fin 12288) (k : Fin 512) :
    val_main_v0 (F := Ideal) a b c (ix2 q k) = DRC.rows3 a b c q k := by
  unfold val_main_v0 DRC.rows3
  by_cases h1 : q.val < 4096
  · rw [dif_pos h1]
    refine concatenate_apply_piece (0 : Fin S12288x512.rank) _ _ (ix2 q k) 0 (by show 0 < 3; omega) S4096x512 a rfl rfl 0 rfl
      (ix2 (⟨q.val, h1⟩ : Fin 4096) k) (fun d hd => ?_) ?_
    · match d with
      | ⟨0, _⟩ => exact absurd rfl hd
      | ⟨1, _⟩ => rfl
    · show 0 + q.val = q.val
      omega
  · rw [dif_neg h1]
    by_cases h2 : q.val < 8192
    · rw [dif_pos h2]
      refine concatenate_apply_piece (0 : Fin S12288x512.rank) _ _ (ix2 q k) 1 (by show 1 < 3; omega) S4096x512 b rfl rfl 4096 rfl
        (ix2 (⟨q.val - 4096, by omega⟩ : Fin 4096) k) (fun d hd => ?_) ?_
      · match d with
        | ⟨0, _⟩ => exact absurd rfl hd
        | ⟨1, _⟩ => rfl
      · show 4096 + (q.val - 4096) = q.val
        omega
    · rw [dif_neg h2]
      refine concatenate_apply_piece (0 : Fin S12288x512.rank) _ _ (ix2 q k) 2 (by show 2 < 3; omega) S4096x512 c rfl rfl 8192 rfl
        (ix2 (⟨q.val - 8192, by have := q.isLt; omega⟩ : Fin 4096) k) (fun d hd => ?_) ?_
      · match d with
        | ⟨0, _⟩ => exact absurd rfl hd
        | ⟨1, _⟩ => rfl
      · show 8192 + (q.val - 8192) = q.val
        omega

/-- The column of row sums of squares of a, spread over the matrix, read at (p, q). -/
private theorem nrmA_read (p : Fin 4096) (q : Fin 12288) :
    val_main_v2 (F := Ideal) a (idx_main_v3 (idx_main_v7 (ix2 p q))) = DRC.nrmA a p := by
  rw [val_main_v2_apply, val_main_cst_apply]
  unfold DRC.nrmA
  rw [Ideal.ofBits_def, Ideal.ofBits_zero_f32]
  refine congrArg (0 + ·) (Finset.sum_congr rfl fun k _ => ?_)
  have e : idx_main_v2 (idx_main_v3 (idx_main_v7 (ix2 p q))) k = ix2 p k := by
    funext d; match d with | ⟨0, _⟩ => rfl | ⟨1, _⟩ => rfl
  rw [val_main_v1_apply, Ideal.mulf_def, e]

/-- The row of row sums of squares of the stack, spread over the matrix, read at (p, q). -/
private theorem nrmR_read (p : Fin 4096) (q : Fin 12288) :
    val_main_v5 (F := Ideal) a b c (idx_main_v6 (idx_main_v8 (ix2 p q))) = DRC.nrmR a b c q := by
  rw [val_main_v5_apply, val_main_cst_0_apply]
  unfold DRC.nrmR
  rw [Ideal.ofBits_def, Ideal.ofBits_zero_f32]
  refine congrArg (0 + ·) (Finset.sum_congr rfl fun k _ => ?_)
  have e : idx_main_v5 (idx_main_v6 (idx_main_v8 (ix2 p q))) k = ix2 q k := by
    funext d; match d with | ⟨0, _⟩ => rfl | ⟨1, _⟩ => rfl
  rw [val_main_v4_apply, Ideal.mulf_def, e, stack_apply]

/-- The product of a with the transposed stack at (p, q): the inner product of row p of a and row q of the stack. -/
private theorem dot_read (p : Fin 4096) (q : Fin 12288) :
    val_main_v11 (F := Ideal) a b c (ix2 p q) = DRC.dotAR a b c p q := by
  rw [val_main_v11_apply]
  unfold DRC.dotAR
  refine Finset.sum_congr rfl fun k _ => ?_
  have el : lidx_main_v11 (ix2 p q) k = ix2 p k := by
    funext d; match d with | ⟨0, _⟩ => rfl | ⟨1, _⟩ => rfl
  have er : idx_main_v10 (ridx_main_v11 (ix2 p q) k) = ix2 q k := by
    funext d; match d with | ⟨0, _⟩ => rfl | ⟨1, _⟩ => rfl
  rw [val_main_v10_apply, el, er, stack_apply]

/-- The clamped Gram expansion at (p, q). -/
private theorem sqd_read (p : Fin 4096) (q : Fin 12288) :
    val_main_v16 (F := Ideal) a b c (ix2 p q) = DRC.sqd a b c p q := by
  rw [val_main_v16_apply, val_main_v14_apply, val_main_v9_apply, val_main_v7_apply, val_main_v3_apply,
    val_main_v8_apply, val_main_v6_apply, val_main_v13_apply, val_main_v12_apply, val_main_cst_1_apply,
    val_main_v15_apply, val_main_cst_2_apply, nrmA_read, nrmR_read, dot_read]
  unfold DRC.sqd
  simp only [Ideal.maximumf_def, Ideal.subf_def, Ideal.addf_def, Ideal.mulf_def, Ideal.ofBits_def,
    Ideal.ofBits_zero_f32, DRC.lit_two]

/-- A choice on "x is greater than zero" is the choice on 0 < x. -/
private theorem select_ogt_zero {α : Type} (x : EReal) (u v : α) :
    Scalar.select (Ideal.cmp .ogt x 0) u v = if 0 < x then u else v := by
  unfold Scalar.select Ideal.cmp
  by_cases h : (0 : EReal) < x
  · simp [h]
  · simp [h]

/-- The distance matrix at (p, q). -/
theorem ref_dist_apply (p : Fin 4096) (q : Fin 12288) :
    val_main_v22 (F := Ideal) a b c (ix2 p q) = DRC.distR (DRC.sqd a b c p q) := by
  rw [val_main_v22_apply, val_main_call2_v0_apply, val_main_call2_cst_apply, val_main_v21_apply,
    val_main_call1_v1_apply, val_main_call1_v0_apply, val_main_cst_5_apply, val_main_v20_apply, val_main_v19_apply,
    val_main_v18_apply, val_main_v17_apply, val_main_cst_3_apply, val_main_call0_v1_apply, val_main_call0_v0_apply,
    val_main_cst_4_apply, sqd_read]
  simp only [Ideal.maximumf_def, Ideal.ofBits_def, Ideal.ofBits_zero_f32, DRC.lit_one, Ideal.cmpf_def,
    Ideal.hostUnary_sqrt_def, select_ogt_zero]
  unfold DRC.distR
  by_cases h : 0 < DRC.sqd a b c p q
  · simp only [if_pos h]
  · simp only [if_neg h]

/-! ## The mask of the three self columns -/

/-- A one-bit word is 0 or 1. -/
private theorem bit_cases (x : BitVec 1) : x = 0#1 ∨ x = 1#1 := by
  have h : x.toNat < 2 := x.isLt
  rcases Nat.lt_or_ge x.toNat 1 with h0 | h1
  · left; apply BitVec.eq_of_toNat_eq; show x.toNat = 0; omega
  · right; apply BitVec.eq_of_toNat_eq; show x.toNat = 1; omega

/-- The disjunction of two one-bit words is set exactly when one of them is. -/
private theorem ori_eq_one (x y : BitVec 1) : IntOp.ori x y = 1#1 ↔ x = 1#1 ∨ y = 1#1 := by
  rcases bit_cases x with rfl | rfl <;> rcases bit_cases y with rfl | rfl <;> decide

/-- Two words of small numbers are equal exactly when the numbers are. -/
private theorem ofNat_eq_iff (x y : Nat) (hx : x < 2 ^ 32) (hy : y < 2 ^ 32) :
    BitVec.ofNat 32 x = BitVec.ofNat 32 y ↔ x = y := by
  constructor
  · intro h
    have h' := congrArg BitVec.toNat h
    rwa [BitVec.toNat_ofNat, BitVec.toNat_ofNat, Nat.mod_eq_of_lt hx, Nat.mod_eq_of_lt hy] at h'
  · rintro rfl; rfl

/-- The mask at (p, q) is set exactly on row p's three self columns. -/
private theorem mask_iff (p : Fin 4096) (q : Fin 12288) :
    val_main_v82 (F := Ideal) (ix2 p q) = 1#1 ↔ DRC.same p q := by
  have hp := p.isLt
  have hq := q.isLt
  have c68 : val_main_v68 (F := Ideal) (ix2 p q) = BitVec.ofNat 32 q.val := by
    rw [val_main_v68_apply, val_main_v66_apply, val_main_v65_apply]
  have c73 : val_main_v73 (F := Ideal) (ix2 p q) = BitVec.ofNat 32 q.val := by
    rw [val_main_v73_apply, val_main_v66_apply, val_main_v65_apply]
  have c79 : val_main_v79 (F := Ideal) (ix2 p q) = BitVec.ofNat 32 q.val := by
    rw [val_main_v79_apply, val_main_v66_apply, val_main_v65_apply]
  have c69 : val_main_v69 (F := Ideal) (ix2 p q) = BitVec.ofNat 32 p.val := by
    rw [val_main_v69_apply, val_main_v67_apply, val_main_v29_apply]
  have c74 : val_main_v74 (F := Ideal) (ix2 p q) = BitVec.ofNat 32 (p.val + 4096) := by
    rw [val_main_v74_apply, val_main_v72_apply, val_main_v67_apply, val_main_v29_apply, val_main_v71_apply,
      val_main_c_17_apply, BitVec.ofNat_add]; rfl
  have c80 : val_main_v80 (F := Ideal) (ix2 p q) = BitVec.ofNat 32 (p.val + 8192) := by
    rw [val_main_v80_apply, val_main_v78_apply, val_main_v67_apply, val_main_v29_apply, val_main_v77_apply,
      val_main_c_18_apply, BitVec.ofNat_add]; rfl
  rw [val_main_v82_apply, ori_eq_one, val_main_v76_apply, ori_eq_one, val_main_v70_apply, val_main_v75_apply,
    val_main_v81_apply, StableHlo.Predicate.cmpi_eq_iff, StableHlo.Predicate.cmpi_eq_iff,
    StableHlo.Predicate.cmpi_eq_iff, c68, c69, c73, c74, c79, c80,
    ofNat_eq_iff _ _ (by omega) (by omega), ofNat_eq_iff _ _ (by omega) (by omega),
    ofNat_eq_iff _ _ (by omega) (by omega)]
  unfold DRC.same
  exact or_assoc

/-- The masked distance matrix at (p, q): +inf on the self columns, the distance elsewhere. -/
private theorem masked_read (p : Fin 4096) (q : Fin 12288) :
    val_main_v83 (F := Ideal) a b c (ix2 p q)
      = if DRC.same p q then (⊤ : EReal) else DRC.distR (DRC.sqd a b c p q) := by
  rw [val_main_v83_apply, val_main_call3_v1_apply, val_main_call3_v0_apply, val_main_cst_19_apply, Ideal.ofBits_def,
    DRC.lit_inf, ref_dist_apply]
  unfold Scalar.select
  by_cases h : DRC.same p q
  · have h1 : val_main_v82 (F := Ideal) (ix2 p q) = 1 := (mask_iff p q).2 h
    rw [if_pos h1, if_pos h]
  · have h1 : ¬ val_main_v82 (F := Ideal) (ix2 p q) = 1 := fun h' => h ((mask_iff p q).1 h')
    rw [if_neg h1, if_neg h]

/-- Row p's masked minimum. -/
theorem ref_neg_apply (p : Fin 4096) :
    val_main_v84 (F := Ideal) a b c (ix1 p) = DRC.negval (fun p q => DRC.distR (DRC.sqd a b c p q)) p := by
  unfold val_main_v84 DRC.negval
  rw [RowMin.hostReduce_apply (m := 4096) (n := 12288) (val_main_v83 (F := Ideal) a b c) (val_main_cst_20 (F := Ideal))
    reducesTo_S4096x12288_S4096_d1 (by decide) h_S_ p]
  rw [val_main_cst_20_apply, Ideal.ofBits_def, DRC.lit_inf]
  exact Finset.fold_congr fun q _ => masked_read a b c p q

/-- The distance between b's and c's rows with the epsilon: the shared operations. -/
theorem ref_d12 : val_main_v28 (F := Ideal) b c = DRC.pairDistEps bcast_S_S4096x512 reducesTo_S4096x512_S4096_d1 h_S_ b c := by
  unfold val_main_v28 val_main_v27 val_main_v26 val_main_v25 val_main_v24 val_main_v23 val_main_cst_6 val_main_cst_7
    DRC.pairDistEps
  rfl

/-- The result is the shared chain of the four per-row quantities. -/
theorem ref_tail : val_main_v91 (F := Ideal) a b c
    = DRC.tail bcast_S_S4096 reducesTo_S4096_S_d0 h_S_ (val_main_v84 (F := Ideal) a b c) (val_main_v45 (F := Ideal) a b c) (val_main_v61 (F := Ideal) a b c) (val_main_v28 (F := Ideal) b c) := by
  unfold val_main_v91 val_main_v90 val_main_v89 val_main_v88 val_main_v87 val_main_v86 val_main_v85 val_main_v64
    val_main_v63 val_main_v62 val_main_call4_v0 val_main_call4_cst val_main_cst_21 val_main_cst_22 val_main_cst_23
    DRC.tail
  rfl

end Cert.ReferenceIdeal.RefSide

end
-- ==== Proof.RefGather.lean ====
/-
  The reference's two positive distances: the distance matrix read at (p, p+4096) and (p, p+8192).

  The reference builds, for each row p, the index pair (p, p+4096) (and (p, p+8192)) from an iota, wrapping negative
  indices by the axis length (never taken: every index is non-negative and in range), joins the two index columns, and
  gathers one element of the distance matrix per row.  So the gathered vector at p is the matrix at that column.
-/
import proofs.«170701_j91010357002637_1_alg».proof.Proof.RefSide
import Idealize.ShloMosaic.Lib.StableHlo.Predicate

noncomputable section

open scoped BigOperators

namespace Cert.Lib

open Idealize.ShloMosaic Idealize.ShloMosaic.ValueIdx

/-! ## An element gather from a matrix: one (row, column) start pair per result element

Operand `[N, M]`, start indices `[n, 2]`, result `[n]`; both operand axes are collapsed and start-indexed, the slice is
one element.  Result element `t` is the operand at the row and the column its two start words select, each read as a
signed integer and clamped into the axis. -/

/-- The dimension numbers of that gather. -/
abbrev pairGatherDims (N M n : Nat)
    (wf : GatherDims.WF ⟨2, ![N, M]⟩ ⟨2, ![n, 2]⟩ ⟨1, ![n]⟩ [] [0, 1] [] [0, 1] [] 1 ![1, 1]) :
    GatherDims ⟨2, ![N, M]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- THE PAIR GATHER READ AT `t`: the operand at (clamped first start word, clamped second start word). -/
theorem gather_pair_apply {α : Type} {N M n : Nat} (hN : 0 < N) (hM : 0 < M)
    (wf : GatherDims.WF ⟨2, ![N, M]⟩ ⟨2, ![n, 2]⟩ ⟨1, ![n]⟩ [] [0, 1] [] [0, 1] [] 1 ![1, 1])
    (x : (⟨2, ![N, M]⟩ : Shape).Idx → α) (idx : IVec ⟨2, ![n, 2]⟩ 32) (t : Fin n) :
    Host.gather (pairGatherDims N M n wf) x idx (ix1 t)
      = x (ix2 (clampRow N hN (idx (ix2 t 0))) (clampRow M hM (idx (ix2 t 1)))) := by
  unfold Host.gather
  congr 1
  -- neither axis is kept or batching: no offset and no batching coordinate, only the clamped start word
  have hax : ∀ a : Fin 2, (pairGatherDims N M n wf).batchCoord (ix1 t) a = 0 ∧ (pairGatherDims N M n wf).offCoord (ix1 t) a = 0 := by
    have hmem : ∀ a : Fin 2, a ∈ ([0, 1] : List (Fin 2)) := by decide
    intro a
    exact ⟨GatherDims.batchCoord_eq_zero _ _ _ List.not_mem_nil,
      GatherDims.offCoord_eq_zero _ _ _ (fun h => ((GatherDims.mem_sKept _ _).mp h).1 (hmem a))⟩
  have h0 : (pairGatherDims N M n wf).start (ix1 t) idx (0 : Fin 2) = (clampRow N hN (idx (ix2 t 0))).val := by
    unfold GatherDims.start
    rw [dif_pos (show (0 : Fin 2) ∈ (pairGatherDims N M n wf).startIndexMap from by show (0 : Fin 2) ∈ ([0, 1] : List (Fin 2)); decide)]
    have hsi : (pairGatherDims N M n wf).siIdx (ix1 t) ⟨List.idxOf (0 : Fin 2) (pairGatherDims N M n wf).startIndexMap,
        List.idxOf_lt_length_iff.2 (by show (0 : Fin 2) ∈ ([0, 1] : List (Fin 2)); decide)⟩ = ix2 t 0 := by
      funext b; refine Fin.ext ?_
      match b with
      | ⟨0, _⟩ => rfl
      | ⟨1, _⟩ => rfl
    rw [hsi]
    rfl
  have h1 : (pairGatherDims N M n wf).start (ix1 t) idx (1 : Fin 2) = (clampRow M hM (idx (ix2 t 1))).val := by
    unfold GatherDims.start
    rw [dif_pos (show (1 : Fin 2) ∈ (pairGatherDims N M n wf).startIndexMap from by show (1 : Fin 2) ∈ ([0, 1] : List (Fin 2)); decide)]
    have hsi : (pairGatherDims N M n wf).siIdx (ix1 t) ⟨List.idxOf (1 : Fin 2) (pairGatherDims N M n wf).startIndexMap,
        List.idxOf_lt_length_iff.2 (by show (1 : Fin 2) ∈ ([0, 1] : List (Fin 2)); decide)⟩ = ix2 t 1 := by
      funext b; refine Fin.ext ?_
      match b with
      | ⟨0, _⟩ => rfl
      | ⟨1, _⟩ => rfl
    rw [hsi]
    rfl
  funext a
  refine Fin.ext ?_
  show (pairGatherDims N M n wf).start (ix1 t) idx a + (pairGatherDims N M n wf).batchCoord (ix1 t) a
    + (pairGatherDims N M n wf).offCoord (ix1 t) a = _
  rw [(hax a).1, (hax a).2]
  simp only [Nat.add_zero]
  match a with
  | ⟨0, _⟩ => exact h0
  | ⟨1, _⟩ => exact h1

/-- A start word that is a small natural number selects that row: read signed it is the number, and the clamp keeps it. -/
theorem clampRow_ofNat (N : Nat) (hN : 0 < N) (hN31 : N ≤ 2 ^ 31) (k : Nat) (hk : k < N) :
    clampRow N hN (BitVec.ofNat 32 k) = ⟨k, hk⟩ := by
  refine Fin.ext ?_
  show min (BitVec.ofNat 32 k).toInt.toNat (N - 1) = k
  rw [StableHlo.Predicate.toInt_ofNat_small k (by omega), Int.toNat_natCast]
  omega

end Cert.Lib

namespace Cert.ReferenceIdeal.RefSide

open Cert.ReferenceIdeal Cert.ReferenceIdeal.Gen Cert.ReferenceIdeal.ReadP Idealize.ShloMosaic Idealize.ShloMosaic.ValueIdx

variable (a b c : (⟨S4096x512, .f32⟩ : BufTy).Contents (Elt Ideal))

/-! ## Words -/

/-- "Negative index counted from the end" on a word that is not negative: the word itself. -/
private theorem select_slt_zero (w x : BitVec 32) (hw : w.toNat < 2 ^ 31) :
    Scalar.select (IntOp.cmpi .slt w 0#32) x w = w := by
  have h : ¬ IntOp.cmpi .slt w 0#32 = 1#1 := by
    rw [StableHlo.Predicate.slt_iff_toNat hw (by decide)]
    simp
  rw [eq_zero_of_ne_one h, select_zero]

/-- A small natural number's word is below 2^31. -/
private theorem toNat_ofNat_small (k : Nat) (hk : k < 2 ^ 31) : (BitVec.ofNat 32 k).toNat < 2 ^ 31 := by
  rw [BitVec.toNat_ofNat]; omega

/-- Adding a constant to an iota word: the word of the sum. -/
private theorem addi_ofNat (k m : Nat) : IntOp.addi (BitVec.ofNat 32 k) (BitVec.ofNat 32 m) = BitVec.ofNat 32 (k + m) := by
  unfold IntOp.addi
  exact (BitVec.ofNat_add k m).symm

/-! ## The index columns -/

/-- The first index column of both gathers is the row number. -/
private theorem v36_apply (p : Fin 4096) : val_main_v36 (F := Ideal) (ix1 p) = BitVec.ofNat 32 p.val := by
  rw [val_main_v36_apply, val_main_v33_apply, val_main_v29_apply, val_main_v32_apply, val_main_c_8_apply]
  exact select_slt_zero _ _ (toNat_ofNat_small p.val (by have := p.isLt; omega))

/-- The second index column of the first gather is the row number plus 4096. -/
private theorem v41_apply (p : Fin 4096) : val_main_v41 (F := Ideal) (ix1 p) = BitVec.ofNat 32 (p.val + 4096) := by
  have h31 : val_main_v31 (F := Ideal) (ix1 p) = BitVec.ofNat 32 (p.val + 4096) := by
    rw [val_main_v31_apply, val_main_v29_apply, val_main_v30_apply, val_main_c_apply]
    exact addi_ofNat _ _
  rw [val_main_v41_apply, val_main_v38_apply, h31, val_main_v37_apply, val_main_c_10_apply]
  exact select_slt_zero _ _ (toNat_ofNat_small _ (by have := p.isLt; omega))

/-- The first index column of the second gather is the row number. -/
private theorem v52_apply (p : Fin 4096) : val_main_v52 (F := Ideal) (ix1 p) = BitVec.ofNat 32 p.val := by
  rw [val_main_v52_apply, val_main_v49_apply, val_main_v29_apply, val_main_v48_apply, val_main_c_13_apply]
  exact select_slt_zero _ _ (toNat_ofNat_small p.val (by have := p.isLt; omega))

/-- The second index column of the second gather is the row number plus 8192. -/
private theorem v57_apply (p : Fin 4096) : val_main_v57 (F := Ideal) (ix1 p) = BitVec.ofNat 32 (p.val + 8192) := by
  have h47 : val_main_v47 (F := Ideal) (ix1 p) = BitVec.ofNat 32 (p.val + 8192) := by
    rw [val_main_v47_apply, val_main_v29_apply, val_main_v46_apply, val_main_c_12_apply]
    exact addi_ofNat _ _
  rw [val_main_v57_apply, val_main_v54_apply, h47, val_main_v53_apply, val_main_c_15_apply]
  exact select_slt_zero _ _ (toNat_ofNat_small _ (by have := p.isLt; omega))

/-- Row p of the first gather's index array is (p, p + 4096). -/
private theorem v44_apply0 (p : Fin 4096) : val_main_v44 (F := Ideal) (ix2 p (0 : Fin 2)) = BitVec.ofNat 32 p.val := by
  unfold val_main_v44
  rw [concatenate_pair_apply_left (s₁ := S4096x1) (s₂ := S4096x1) (1 : Fin 2) _ _ concatenates_S4096x1_S4096x1_S4096x2_d1 (ix2 p (0 : Fin 2)) rfl (ix2 p (0 : Fin 1))
    (fun b => by match b with | ⟨0, _⟩ => rfl | ⟨1, _⟩ => rfl)]
  rw [val_main_v42_apply]
  exact v36_apply p

private theorem v44_apply1 (p : Fin 4096) : val_main_v44 (F := Ideal) (ix2 p (1 : Fin 2)) = BitVec.ofNat 32 (p.val + 4096) := by
  unfold val_main_v44
  rw [concatenate_pair_apply_right (s₁ := S4096x1) (s₂ := S4096x1) (1 : Fin 2) _ _ concatenates_S4096x1_S4096x1_S4096x2_d1 (ix2 p (1 : Fin 2)) rfl rfl (ix2 p (0 : Fin 1))
    (fun b hb => by match b with | ⟨0, _⟩ => rfl | ⟨1, _⟩ => exact absurd rfl hb) rfl]
  rw [val_main_v43_apply]
  exact v41_apply p

/-- Row p of the second gather's index array is (p, p + 8192). -/
private theorem v60_apply0 (p : Fin 4096) : val_main_v60 (F := Ideal) (ix2 p (0 : Fin 2)) = BitVec.ofNat 32 p.val := by
  unfold val_main_v60
  rw [concatenate_pair_apply_left (s₁ := S4096x1) (s₂ := S4096x1) (1 : Fin 2) _ _ concatenates_S4096x1_S4096x1_S4096x2_d1 (ix2 p (0 : Fin 2)) rfl (ix2 p (0 : Fin 1))
    (fun b => by match b with | ⟨0, _⟩ => rfl | ⟨1, _⟩ => rfl)]
  rw [val_main_v58_apply]
  exact v52_apply p

private theorem v60_apply1 (p : Fin 4096) : val_main_v60 (F := Ideal) (ix2 p (1 : Fin 2)) = BitVec.ofNat 32 (p.val + 8192) := by
  unfold val_main_v60
  rw [concatenate_pair_apply_right (s₁ := S4096x1) (s₂ := S4096x1) (1 : Fin 2) _ _ concatenates_S4096x1_S4096x1_S4096x2_d1 (ix2 p (1 : Fin 2)) rfl rfl (ix2 p (0 : Fin 1))
    (fun b hb => by match b with | ⟨0, _⟩ => rfl | ⟨1, _⟩ => exact absurd rfl hb) rfl]
  rw [val_main_v59_apply]
  exact v57_apply p

/-! ## The two gathers -/

/-- The first positive distance of row p: the matrix at column p+4096. -/
theorem ref_l1_apply (p : Fin 4096) :
    val_main_v45 (F := Ideal) a b c (ix1 p) = DRC.distR (DRC.sqd a b c p (⟨p.val + 4096, by have := p.isLt; omega⟩ : Fin 12288)) := by
  unfold val_main_v45
  rw [show gather_S4096x12288_S4096x2_S4096_n_01_n_n_01_1_11
      = Cert.Lib.pairGatherDims 4096 12288 4096 Facts₀.gather_S4096x12288_S4096x2_S4096_n_01_n_n_01_1_11_wf from rfl,
    Cert.Lib.gather_pair_apply (by decide) (by decide), v44_apply0, v44_apply1,
    Cert.Lib.clampRow_ofNat 4096 _ (by decide) p.val p.isLt,
    Cert.Lib.clampRow_ofNat 12288 _ (by decide) (p.val + 4096) (by have := p.isLt; omega)]
  exact ref_dist_apply a b c p _

/-- The second: the matrix at column p+8192. -/
theorem ref_l2_apply (p : Fin 4096) :
    val_main_v61 (F := Ideal) a b c (ix1 p) = DRC.distR (DRC.sqd a b c p (⟨p.val + 8192, by have := p.isLt; omega⟩ : Fin 12288)) := by
  unfold val_main_v61
  rw [show gather_S4096x12288_S4096x2_S4096_n_01_n_n_01_1_11
      = Cert.Lib.pairGatherDims 4096 12288 4096 Facts₀.gather_S4096x12288_S4096x2_S4096_n_01_n_n_01_1_11_wf from rfl,
    Cert.Lib.gather_pair_apply (by decide) (by decide), v60_apply0, v60_apply1,
    Cert.Lib.clampRow_ofNat 4096 _ (by decide) p.val p.isLt,
    Cert.Lib.clampRow_ofNat 12288 _ (by decide) (p.val + 8192) (by have := p.isLt; omega)]
  exact ref_dist_apply a b c p _

end Cert.ReferenceIdeal.RefSide

end
-- ==== Proof.Bridge.lean ====
/-
  The two programs' results are one extended real, for finite inputs.

  Both results are the shared chain of four per-row quantities.  The negative values agree because the two distance
  forms agree on the clamped (hence non-negative) squared distances, entry by entry under the row minimum.  The
  positive distances agree because, for real inputs, the clamped Gram expansion at the columns p+4096 and p+8192 is
  the sum of squared differences of a's row with b's and with c's, whose root the kernel computes directly.  The
  distance of b and c with the epsilon is the same operations on both sides.
-/
import proofs.«170701_j91010357002637_1_alg».proof.Proof.KI.Tail
import proofs.«170701_j91010357002637_1_alg».proof.Proof.KI.Blocks
import proofs.«170701_j91010357002637_1_alg».proof.Proof.RefSide
import proofs.«170701_j91010357002637_1_alg».proof.Proof.RefGather
import proofs.«170701_j91010357002637_1_alg».proof.Proof.Spec

noncomputable section

namespace Cert.Proof.Bridge

open Idealize.ShloMosaic Idealize.ShloMosaic.TcCoe Idealize.ShloMosaic.ValueIdx Idealize.SL.Sem
open Cert.KernelIdeal.HandValue Cert.ReferenceIdeal.RefSide

variable [hK : Cert.KernelIdeal.Facts] [hR : Cert.ReferenceIdeal.Facts]
variable (m : (ℓ : Loc Cert.KernelIdeal.nD Cert.KernelIdeal.τ Cert.KernelIdeal.sig) → Buf (Elt Ideal) ℓ)

/-- Every index of a 4096-vector is a row. -/
theorem idx_row (i : DRC.S4096.Idx) : i = ix1 (⟨(i 0).val, (i 0).isLt⟩ : Fin 4096) := by
  funext a
  match a with
  | ⟨0, _⟩ => rfl

/-- The kernel's negative values are the reference's. -/
theorem neg_eq (c : Dev Cert.KernelIdeal.nD) :
    negK m c = Cert.ReferenceIdeal.ReadP.val_main_v84 (F := Ideal) (inA m c) (inB m c) (inC m c) := by
  funext i
  rw [idx_row i]
  generalize (⟨(i 0).val, (i 0).isLt⟩ : Fin 4096) = p
  refine (arr_out m c p).trans ?_
  rw [ref_neg_apply]
  unfold DRC.negval
  refine Finset.fold_congr fun q _ => ?_
  dsimp only
  rw [DRC.distR_eq_distK (DRC.sqd_nonneg (inA m c) (inB m c) (inC m c) p q)]

/-- The kernel's first positive distance is the reference's, for real inputs. -/
theorem l1_eq (c : Dev Cert.KernelIdeal.nD) (ha : DRC.IsReal (inA m c)) (hb : DRC.IsReal (inB m c))
    (hr : DRC.S4096x512.ReducesTo [1] DRC.S4096) (h0 : 0 < DRC.S_.numel) :
    DRC.pairDist hr h0 (inA m c) (inB m c)
      = Cert.ReferenceIdeal.ReadP.val_main_v45 (F := Ideal) (inA m c) (inB m c) (inC m c) := by
  funext i
  rw [idx_row i]
  generalize (⟨(i 0).val, (i 0).isLt⟩ : Fin 4096) = p
  rw [DRC.pairDist_apply, ref_l1_apply, DRC.distR_eq_distK (DRC.sqd_nonneg _ _ _ _ _), DRC.sqd_mid _ _ _ ha hb]

/-- And the second. -/
theorem l2_eq (c : Dev Cert.KernelIdeal.nD) (ha : DRC.IsReal (inA m c)) (hc : DRC.IsReal (inC m c))
    (hr : DRC.S4096x512.ReducesTo [1] DRC.S4096) (h0 : 0 < DRC.S_.numel) :
    DRC.pairDist hr h0 (inA m c) (inC m c)
      = Cert.ReferenceIdeal.ReadP.val_main_v61 (F := Ideal) (inA m c) (inB m c) (inC m c) := by
  funext i
  rw [idx_row i]
  generalize (⟨(i 0).val, (i 0).isLt⟩ : Fin 4096) = p
  rw [DRC.pairDist_apply, ref_l2_apply, DRC.distR_eq_distK (DRC.sqd_nonneg _ _ _ _ _), DRC.sqd_last _ _ _ ha hc]

/-- The kernel's result is the reference's stage of the same inputs, for real inputs. -/
theorem result_eq_ref (c : Dev Cert.KernelIdeal.nD) (ha : DRC.IsReal (inA m c)) (hb : DRC.IsReal (inB m c)) (hc : DRC.IsReal (inC m c)) :
    (Pipeline.afterTail₀ Cert.KernelIdeal.cfgs (Cert.KernelIdeal.Hand.dats (F := Ideal) m) 0 (Cert.KernelIdeal.Hand.V0 m) Cert.KernelIdeal.Hand.tailOps c Cert.KernelIdeal.main_v35 : DRC.S_.Idx → EReal)
      = Cert.ReferenceIdeal.ReadP.val_main_v91 (F := Ideal) (inA m c) (inB m c) (inC m c) := by
  rw [result_eq, ref_tail, neg_eq, l1_eq m c ha hb, l2_eq m c ha hc, ref_d12]

end Cert.Proof.Bridge

end
-- ==== Proof.Finite.lean ====
/-
  Finite inputs are real numbers.

  The precondition says that every entry of each of the three input matrices has absolute value below +inf.  An
  extended real whose absolute value is below +inf is neither +inf nor -inf, so it is a real number.
-/
import proofs.«170701_j91010357002637_1_alg».proof.Defs
import proofs.«170701_j91010357002637_1_alg».proof.Proof.Gen.Pre_finite_inputs
import proofs.«170701_j91010357002637_1_alg».proof.Proof.Gen.KernelIdeal
import proofs.«170701_j91010357002637_1_alg».proof.Proof.Spec
import Idealize.ShloMosaic.Lib.ReduceAll
import Idealize.ShloMosaic.Lib.ValueIdx

noncomputable section

namespace Cert.Proof.Finite

open Idealize.ShloMosaic Idealize.ShloMosaic.ValueIdx Idealize.SL.Sem

/-- The result shape of a reduction over all axes has a single index. -/
private instance subsingleton_scalar_idx : Subsingleton Cert.Pre_finite_inputs.S_.Idx :=
  ⟨fun a b => funext fun d => d.elim0⟩

/-- An extended real whose absolute value max x (-x) compares below the f32 word of +inf is a real number:
    x = -inf gives max x (-x) = +inf, x = +inf likewise, and neither is below +inf. -/
private theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => exact absurd h (by simp [Ideal.cmp])
  | coe r => exact ⟨r, rfl⟩
  | top => exact absurd h (by simp [Ideal.cmp])

/-- One conjunct of the precondition: if the conjunction over all entries of |x| < +inf is 1 then every entry of x
    is a real number. -/
private theorem isReal_of_all [hP : Cert.Pre_finite_inputs.Facts] (x : DRC.Mat)
    (h : Host.reduce IntOp.andi
        (cmpf (F := Ideal) .olt (Host.absf (F := Ideal) (φ := .f32) x)
          (broadcastInDim Cert.Pre_finite_inputs.S4096x512 ![] hP.bcast_S_S4096x512
            (constant (F := Ideal) Cert.Pre_finite_inputs.S_ .f32 0x7F800000#32)))
        (constantI Cert.Pre_finite_inputs.S_ 1 1#1) hP.reducesTo_S4096x512_S_d0_1 hP.h_S_ ValueIdx.ix0 = 1#1) :
    DRC.IsReal x := by
  intro i
  have hi := Host.reduce_andi_all _ _ _ _ _ h i
  exact real_of_abs_lt_inf (x i) hi

/-- Under the precondition every entry of the three inputs of the idealized kernel's program is a real number. -/
theorem isReal_of_pre [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    DRC.IsReal (m ((c.tc : Thread Cert.KernelIdeal.nD Cert.KernelIdeal.τ).loc Cert.KernelIdeal.main_arg0))
    ∧ DRC.IsReal (m ((c.tc : Thread Cert.KernelIdeal.nD Cert.KernelIdeal.τ).loc Cert.KernelIdeal.main_arg1))
    ∧ DRC.IsReal (m ((c.tc : Thread Cert.KernelIdeal.nD Cert.KernelIdeal.τ).loc Cert.KernelIdeal.main_arg2)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨isReal_of_all _ h0', isReal_of_all _ h1, isReal_of_all _ h2⟩

end Cert.Proof.Finite

end
-- ==== Proof.lean ====
/-
  The certificate: the kernel's two programs and the reference run to the end and leave their inputs unchanged, and the
  idealized kernel and the idealized reference end with the same extended real for finite inputs.

  The kernel's program (at the word level and over the extended reals alike) is a host prefix, one pipelined region
  that carries a running row minimum in scratch across the 24 column tiles of each of 4 row tiles, and a host tail;
  its run is the library's frame run around a region with a carried scratch.  The reference is host operations only.
  The two results are one chain of host operations applied to four per-row quantities, which agree: the negative
  values because a guarded square root clamped at zero is the square root on non-negative arguments, the positive
  distances because over the reals |x|^2 + |y|^2 - 2 <x, y> is the sum of squared differences.
-/
import proofs.«170701_j91010357002637_1_alg».proof.Defs
import proofs.«170701_j91010357002637_1_alg».proof.Proof.Gen.Kernel
import proofs.«170701_j91010357002637_1_alg».proof.Proof.Gen.KernelIdeal
import proofs.«170701_j91010357002637_1_alg».proof.Proof.Gen.ReferenceIdeal
import proofs.«170701_j91010357002637_1_alg».proof.Proof.Gen.Pre_finite_inputs
import proofs.«170701_j91010357002637_1_alg».proof.Proof.K.Frame
import proofs.«170701_j91010357002637_1_alg».proof.Proof.KI.Frame
import proofs.«170701_j91010357002637_1_alg».proof.Proof.Bridge
import proofs.«170701_j91010357002637_1_alg».proof.Proof.RefRun
import proofs.«170701_j91010357002637_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its inputs. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at the kernel's result term: the kernel by its run, the reference because its staged
    result is that term for real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Pipeline.afterTail₀ Cert.KernelIdeal.cfgs (Cert.KernelIdeal.Hand.dats (F := Ideal) m) 0 (Cert.KernelIdeal.Hand.V0 m)
    Cert.KernelIdeal.Hand.tailOps c Cert.KernelIdeal.main_v35, ?_, ?_⟩
  · refine (θ_run Cert.KernelIdeal.defs _ _).mono (fun _ h c => ⟨?_, ?_, ?_, ?_⟩) (Cert.KernelIdeal.Hand.run_main (F := Ideal) m ρ)
    · exact (h c).2 Cert.KernelIdeal.main_v35 (Pipeline.mem_restRefs_of Cert.KernelIdeal.main_v35 (by decide) (by decide))
    · exact ((h c).2 Cert.KernelIdeal.main_arg0 (Pipeline.mem_restRefs_of Cert.KernelIdeal.main_arg0 (by decide) (by decide))).trans
        ((Cert.KernelIdeal.Hand.tail_keeps m c Cert.KernelIdeal.main_arg0 (by decide) (by decide)).trans (Cert.KernelIdeal.Hand.V_main_arg0 m c))
    · exact ((h c).2 Cert.KernelIdeal.main_arg1 (Pipeline.mem_restRefs_of Cert.KernelIdeal.main_arg1 (by decide) (by decide))).trans
        ((Cert.KernelIdeal.Hand.tail_keeps m c Cert.KernelIdeal.main_arg1 (by decide) (by decide)).trans (Cert.KernelIdeal.Hand.V_main_arg1 m c))
    · exact ((h c).2 Cert.KernelIdeal.main_arg2 (Pipeline.mem_restRefs_of Cert.KernelIdeal.main_arg2 (by decide) (by decide))).trans
        ((Cert.KernelIdeal.Hand.tail_keeps m c Cert.KernelIdeal.main_arg2 (by decide) (by decide)).trans (Cert.KernelIdeal.Hand.V_main_arg2 m c))
  · refine (θ_run Cert.ReferenceIdeal.defs _ _).mono (fun _ h c => ⟨(h c).1.trans ?_, (h c).2⟩)
      (Cert.ReferenceIdeal.ValueP.run (F := Ideal) m' ρ')
    obtain ⟨ha, hb, hc⟩ := Cert.Proof.Finite.isReal_of_pre (hK := Cert.KernelIdeal.Gen.facts) (hP := Cert.Pre_finite_inputs.Gen.facts) m hpre c
    have e := Cert.Proof.Bridge.result_eq_ref (hK := Cert.KernelIdeal.Gen.facts) (hR := Cert.ReferenceIdeal.Gen.facts) m c ha hb hc
    rw [Cert.ReferenceIdeal.ValueP.val_main_v91_eq, (hagree c).1, (hagree c).2.1, (hagree c).2.2]
    exact e.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
